-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8192x2048 .f32) (main_arg1 : FVec F S8x2048x4096 .f32) (main_arg2 : FVec F S8x2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S8x1024x2048 : Shape := ⟨3, ![8, 1024, 2048]⟩
abbrev S1x256x512 : Shape := ⟨3, ![1, 256, 512]⟩
abbrev S1x512x4096 : Shape := ⟨3, ![1, 512, 4096]⟩
abbrev S1x256x2048 : Shape := ⟨3, ![1, 256, 2048]⟩
abbrev S256x4096 : Shape := ⟨2, ![256, 4096]⟩
abbrev S256x512 : Shape := ⟨2, ![256, 512]⟩
abbrev S512x4096 : Shape := ⟨2, ![512, 4096]⟩
abbrev S256x2048 : Shape := ⟨2, ![256, 2048]⟩
abbrev S1x512x2048 : Shape := ⟨3, ![1, 512, 2048]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8x2048x4096, .f32⟩
  | .hbm, ⟨2, _⟩ => ⟨S8x2048x2048, .f32⟩
  | .hbm, ⟨3, _⟩ => ⟨S8x1024x2048, .f32⟩
  | .hbm, ⟨4, _⟩ => ⟨S8x1024x2048, .bf16⟩
  | .hbm, ⟨5, _⟩ => ⟨S8x1024x2048, .f32⟩
  | .hbm, ⟨6, _⟩ => ⟨S8192x2048, .f32⟩
  | .local _ .vmem, ⟨0, _⟩ => ⟨S1x256x512, .f32⟩
  | .local _ .vmem, ⟨1, _⟩ => ⟨S1x256x512, .f32⟩
  | .local _ .vmem, ⟨2, _⟩ => ⟨S1x512x4096, .f32⟩
  | .local _ .vmem, ⟨3, _⟩ => ⟨S1x512x4096, .f32⟩
  | .local _ .vmem, ⟨4, _⟩ => ⟨S1x256x2048, .bf16⟩
  | .local _ .vmem, ⟨5, _⟩ => ⟨S1x256x2048, .bf16⟩
  | .local _ .vmem, ⟨6, _⟩ => ⟨S256x4096, .f32⟩
  | .local _ .vmem, ⟨7, _⟩ => ⟨S1x256x512, .bf16⟩
  | .local _ .vmem, ⟨8, _⟩ => ⟨S1x256x512, .bf16⟩
  | .local _ .vmem, ⟨9, _⟩ => ⟨S1x512x2048, .f32⟩
  | .local _ .vmem, ⟨10, _⟩ => ⟨S1x512x2048, .f32⟩
  | .local _ .vmem, ⟨11, _⟩ => ⟨S1x256x2048, .f32⟩
  | .local _ .vmem, ⟨12, _⟩ => ⟨S1x256x2048, .f32⟩
  | .local _ .vmem, ⟨13, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192x2048_S8x1024x2048 : S8192x2048.ShapeCasts S8x1024x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  slices_S256x4096_o0_0_S256x2048 : S256x4096.Slices ![0, 0] S256x2048
  slices_S256x4096_o0_2048_S256x2048 : S256x4096.Slices ![0, 2048] S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S8x1024x2048_S8192x2048 : S8x1024x2048.ShapeCasts S8192x2048
  dot_S256x512_S512x4096_S256x4096_1_0_0_1_n_n_wf : DotDims.WF S256x512 S512x4096 S256x4096 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x1024x2048.size a
  hwx0_0 : ∀ i : grid0.Coords, EltTy.bits .f32 = 32 ∨ (Rect.block (s := S8x1024x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x2048x4096.size a
  hwx0_1 : ∀ i : grid0.Coords, EltTy.bits .f32 = 32 ∨ (Rect.block (s := S8x2048x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x1024x2048.size a
  hwx0_2 : ∀ i : grid0.Coords, EltTy.bits .bf16 = 32 ∨ (Rect.block (s := S8x1024x2048) S1x256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S8x1024x2048.size a
  hwx1_0 : ∀ i : grid1.Coords, EltTy.bits .bf16 = 32 ∨ (Rect.block (s := S8x1024x2048) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x2048x2048.size a
  hwx1_1 : ∀ i : grid1.Coords, EltTy.bits .f32 = 32 ∨ (Rect.block (s := S8x2048x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S8x1024x2048.size a
  hwx1_2 : ∀ i : grid1.Coords, EltTy.bits .f32 = 32 ∨ (Rect.block (s := S8x1024x2048) S1x256x2048.size (cc1_transform_2 i) (hinb1_2 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S8x1024x2048 : Shape := ⟨3, ![8, 1024, 2048]⟩
abbrev S8x1024x4096 : Shape := ⟨3, ![8, 1024, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x4096, .f32⟩
  | .hbm, ⟨2, _⟩ => ⟨S8x2048x2048, .f32⟩
  | .hbm, ⟨3, _⟩ => ⟨S8x1024x2048, .f32⟩
  | .hbm, ⟨4, _⟩ => ⟨S8x1024x4096, .f32⟩
  | .hbm, ⟨5, _⟩ => ⟨S8x1024x2048, .f32⟩
  | .hbm, ⟨6, _⟩ => ⟨S8x1024x2048, .f32⟩
  | .hbm, ⟨7, _⟩ => ⟨S_, .f32⟩
  | .hbm, ⟨8, _⟩ => ⟨S8x1024x2048, .f32⟩
  | .hbm, ⟨9, _⟩ => ⟨S8x1024x2048, .f32⟩
  | .hbm, ⟨10, _⟩ => ⟨S8x1024x2048, .f32⟩
  | .hbm, ⟨11, _⟩ => ⟨S8x1024x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x4096_S8x1024x2048_0_0_0 : S8x1024x4096.Slices ![0, 0, 0] S8x1024x2048
  slices_S8x1024x4096_S8x1024x2048_0_0_2048 : S8x1024x4096.Slices ![0, 0, 2048] S8x1024x2048
  bcast_S_S8x1024x2048 : S_.BroadcastsInDim S8x1024x2048 (![] : Fin 0 → Fin S8x1024x2048.rank)
  shapeCasts_S8x1024x2048_S8192x2048 : S8x1024x2048.ShapeCasts S8192x2048
  dot_S8x1024x2048_S8x2048x4096_S8x1024x4096_2_1_1_2_0_0_wf : DotDims.WF S8x1024x2048 S8x2048x4096 S8x1024x4096 [2] [1] [1] [2] [0] [0]
  dot_S8x1024x2048_S8x2048x2048_S8x1024x2048_2_1_1_2_0_0_wf : DotDims.WF S8x1024x2048 S8x2048x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x2048_S8x2048x2048_S8x1024x2048_2_1_1_2_0_0 : DotDims S8x1024x2048 S8x2048x2048 S8x1024x2048 where
  lhsContracting := [2]
  rhsContracting := [1]
  lhsNonContracting := [1]
  rhsNonContracting := [2]
  lhsBatch := [0]
  rhsBatch := [0]
  wf := dot_S8x1024x2048_S8x2048x2048_S8x1024x2048_2_1_1_2_0_0_wf

class Facts : Prop extends Facts₀ where

variable [Facts]
-- ==== Proof.K.R0Base.lean ====
/-
  The first projection's kernel region, at the contents `V` the region finds in the TensorCore's buffers.

  The grid is 8 experts × 4 token tiles × 4 contraction steps, 128 points in row-major order, so point `t` is at
  contraction step `t % 4`.  Here: each window's block at a point read off `V`; the body's two branch conditions
  ("first contraction step", "last contraction step") as facts about `t % 4`; at which points the output window is
  idle; the accumulator buffer the kernel carries from point to point, and the region invariant's shape around it.
-/
import proofs.«159095_j3204045603931_1_alg».proof.Proof.Gen.Kernel.Launch
import proofs.«159095_j3204045603931_1_alg».proof.Proof.Gen.Kernel.Skeleton
import proofs.«159095_j3204045603931_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's current staging buffer holds its block at every point, whatever proof data has `V`'s array
    and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first contraction step": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last contraction step": the gated product is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last contraction step the body stores nothing into the output window, -/
theorem idleAt0_2 : ∀ t : Fin cfg0.N, ¬cond0_1 (grid0.coords t) → cfg0.idle 2 (grid0.coords t) = true := by decide +kernel
/-- and the pipeline does not write its block back; -/
theorem noFlush0_2 : ∀ t : Fin cfg0.N, ¬cond0_1 (grid0.coords t) → (cfg0.win 2).flush t = false := by decide +kernel
/-- on it the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .bf16 := win0_2.stage (cfg0.slots t 2)
abbrev hs0_2 (t : Fin cfg0.N) : (ms0_2 t).IsWhole := hstage0_2 ((cfg0.slots t 2).cast nbuf0_2)
/-- The accumulator: a whole buffer of the kernel's own, carried from point to point. -/
abbrev scM0 : Memref sig .tc .vmem S256x4096 .f32 := Memref.whole cc0_scratch0
/-- One staging buffer of the output window and the accumulator, as views through which contents are stated. -/
abbrev VO0 : View sig .tc .vmem S1x256x2048 .bf16 := (Memref.whole cc0_stg2_0 : Memref sig .tc .vmem S1x256x2048 .bf16).view
abbrev VS0 : View sig .tc .vmem S256x4096 .f32 := scM0.view

/-! ## The region invariant's shape -/

/-- The core's other scoped buffers (the second region's staging buffers and accumulator), each at some contents:
    they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's plain invariant — every scoped buffer that is no staging buffer of this region at some contents, the
    generator register at some state — with the accumulator set apart as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Fr

end
-- ==== Proof.K.R0RunA.lean ====
/-
  The first projection's kernel body at a FIRST contraction step (reset taken, final store not taken), run whole:
  the accumulator, found at anything, is reset to zero and then receives zero plus this step's block product; the
  output window's buffer is not touched.  The accumulator's final contents are recorded as the list of pieces the
  body's stores write, latest first, which is what the run itself finds.
-/
import proofs.«159095_j3204045603931_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) :
    Σ' (L2 : List (View.Piece (Elt F) S1x256x2048 .bf16)), { LS0 : List (View.Piece (Elt F) S256x4096 .f32) //
      ∀ (xi2 : Vec F S1x256x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨[], ?_, fun xi2 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.R0RunB.lean ====
/-
  The first projection's kernel body at a MIDDLE contraction step (neither branch taken), run whole: the accumulator,
  found at what the step before left, receives that plus this step's block product; the output window's buffer is not
  touched.
-/
import proofs.«159095_j3204045603931_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) :
    Σ' (L2 : List (View.Piece (Elt F) S1x256x2048 .bf16)), { LS0 : List (View.Piece (Elt F) S256x4096 .f32) //
      ∀ (xi2 : Vec F S1x256x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨[], ?_, fun xi2 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.R0RunC.lean ====
/-
  The first projection's kernel body at a LAST contraction step (reset not taken, final store taken), run whole: the
  accumulator, found at what the step before left, receives that plus this step's block product, and the output
  window's buffer, found at anything, is stored whole with the gated product of the accumulator's two halves.
-/
import proofs.«159095_j3204045603931_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    Σ' (L2 : List (View.Piece (Elt F) S1x256x2048 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.R0Body.lean ====
/-
  The first projection's kernel region: what the body leaves at each of the 128 points, and the body obligation.

  At a point `t` the accumulator holds: at a first contraction step, zero plus the step's block product; otherwise
  what point `t - 1` left plus the step's block product (`outsAt0`'s second component, by recursion on the point).
  The output window's buffer is stored only at a last contraction step, with the gated product of the accumulator's
  halves (`outsAt0`'s first component there; elsewhere the window is idle and that component is not consulted).
  The region invariant carries the accumulator at exactly these contents from point to point; before the first point
  and after the last it is the plain invariant (the accumulator at anything).
-/
import proofs.«159095_j3204045603931_1_alg».proof.Proof.K.R0RunA
import proofs.«159095_j3204045603931_1_alg».proof.Proof.K.R0RunB
import proofs.«159095_j3204045603931_1_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first contraction step the output window gets no store (no pieces). -/
def out0_A_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S1x256x2048 .bf16 :=
  VO0.read (Elt F) (VO0.writes (Elt F) VO0.junk (kernelRun0_A c i arg3 harg3 arg4 harg4 arg5 harg5 arg6 harg6 hc0 hc1 x0 x1).1)

/-- The accumulator's pieces there tile it, so they cover it. -/
theorem scover0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) (y : S256x4096.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x4096.size (by sl_kernel_rfl) y

/-- What a first contraction step leaves in the accumulator. -/
def sout0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S256x4096 .f32 :=
  VS0.read (Elt F) (VS0.writes (Elt F) VS0.junk (kernelRun0_A c i arg3 harg3 arg4 harg4 arg5 harg5 arg6 harg6 hc0 hc1 x0 x1).2.1)

/-- At a middle step the output window gets no store either. -/
def out0_B_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S1x256x2048 .bf16 :=
  VO0.read (Elt F) (VO0.writes (Elt F) VO0.junk (kernelRun0_B c i arg3 harg3 arg4 harg4 arg5 harg5 arg6 harg6 hc0 hc1 x0 x1 xs0).1)

theorem scover0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) (y : S256x4096.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x4096.size (by sl_kernel_rfl) y

/-- What a middle step leaves in the accumulator, over what the step before left. -/
def sout0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S256x4096 .f32 :=
  VS0.read (Elt F) (VS0.writes (Elt F) VS0.junk (kernelRun0_B c i arg3 harg3 arg4 harg4 arg5 harg5 arg6 harg6 hc0 hc1 x0 x1 xs0).2.1)

/-- At a last step the output window's one store covers its block. -/
theorem cover0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S1x256x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x256x2048.size (by sl_kernel_rfl) y

/-- What a last step leaves in the output window's buffer. -/
def out0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S1x256x2048 .bf16 :=
  VO0.read (Elt F) (VO0.writes (Elt F) VO0.junk (kernelRun0_C c i arg3 harg3 arg4 harg4 arg5 harg5 arg6 harg6 hc0 hc1 x0 x1 xs0).1)

theorem scover0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S256x4096.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x4096.size (by sl_kernel_rfl) y

/-- What a last step leaves in the accumulator. -/
def sout0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S256x4096 .f32 :=
  VS0.read (Elt F) (VS0.writes (Elt F) VS0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output window's buffer and the accumulator hold after the body at position `n`: the case `n % 4` selects,
    run on the point's blocks, the accumulator read at what position `n - 1` left. -/
def outsAt0 (c : Dev nD) : (n : ℕ) → n < cfg0.N → Vec F S1x256x2048 .bf16 × Vec F S256x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first contraction step. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle step: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

/-- Before position `n`: the plain invariant at the start; afterwards the accumulator at what position `n - 1` left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The region's proof data on core `c`: the arrays as the region finds them; after the body at point `t` each
    input window's buffer at its block, the output window's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input windows' buffers hold their blocks; `t % 4` says which case the point is in;
    the invariant hands the body the accumulator at what the point before left (at anything before the first point, and
    at a first contraction step the contents are not read), and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 4 = 0
  · have h1 : ¬t.val % 4 = 3 := by omega
    have hnc1 : ¬cond0_1 (grid0.coords t) := fun h => h1 ((hcond0_1 t).mp h)
    rw [Dat.leavesExact_idle (dat0 V c) 2 t (idleAt0_2 t hnc1) (noFlush0_2 t hnc1)]
    rw [outsAt0_A V c t h0 h1]
    unfold sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_2 sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ hnc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hnc1 : ¬cond0_1 (grid0.coords t) := fun h => h1 ((hcond0_1 t).mp h)
      rw [Dat.leavesExact_idle (dat0 V c) 2 t (idleAt0_2 t hnc1) (noFlush0_2 t hnc1)]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ hnc0 hnc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The plain invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the plain one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end

end Cert.Kernel.Fr

end
-- ==== Proof.K.R1Base.lean ====
/-
  The second projection's kernel region, at the contents `V` the region finds in the TensorCore's buffers.

  The grid is 8 experts × 4 token tiles × 4 contraction steps, 128 points in row-major order, so point `t` is at
  contraction step `t % 4`.  Here: each window's block at a point read off `V`; the body's two branch conditions
  ("first contraction step", "last contraction step") as facts about `t % 4`; at which points the output window is
  idle; the accumulator buffer the kernel carries from point to point, and the region invariant's shape around it.
-/
import proofs.«159095_j3204045603931_1_alg».proof.Proof.Gen.Kernel.Launch
import proofs.«159095_j3204045603931_1_alg».proof.Proof.Gen.Kernel.Skeleton
import proofs.«159095_j3204045603931_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's current staging buffer holds its block at every point, whatever proof data has `V`'s
    array and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first contraction step": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction step": the accumulated product is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last contraction step the body stores nothing into the output window, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- on it the window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2048 .f32 := win1_2.stage (cfg1.slots t 2)
abbrev hs1_2 (t : Fin cfg1.N) : (ms1_2 t).IsWhole := hstage1_2 ((cfg1.slots t 2).cast nbuf1_2)
/-- The accumulator: a whole buffer of the kernel's own, carried from point to point. -/
abbrev scM1 : Memref sig .tc .vmem S256x2048 .f32 := Memref.whole cc1_scratch0
/-- One staging buffer of the output window and the accumulator, as views through which contents are stated. -/
abbrev VO1 : View sig .tc .vmem S1x256x2048 .f32 := (Memref.whole cc1_stg2_0 : Memref sig .tc .vmem S1x256x2048 .f32).view
abbrev VS1 : View sig .tc .vmem S256x2048 .f32 := scM1.view

/-! ## The region invariant's shape -/

/-- The core's other scoped buffers (the first region's staging buffers and accumulator), each at some contents:
    they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Separating conjunction is commutative and associative: the last of eight conjuncts may stand first. -/
theorem sep_last_first {M : Type} [URA M] (A1 A2 A3 A4 A5 A6 A7 S : sProp M) :
    iprop(A1 ∗ A2 ∗ A3 ∗ A4 ∗ A5 ∗ A6 ∗ A7 ∗ S) = iprop(S ∗ A1 ∗ A2 ∗ A3 ∗ A4 ∗ A5 ∗ A6 ∗ A7) := by
  have h₁ : iprop(A1 ∗ A2 ∗ A3 ∗ A4 ∗ A5 ∗ A6 ∗ A7 ∗ S) ⊢ iprop(S ∗ A1 ∗ A2 ∗ A3 ∗ A4 ∗ A5 ∗ A6 ∗ A7) := by
    iintro ⟨H1, H2, H3, H4, H5, H6, H7, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  have h₂ : iprop(S ∗ A1 ∗ A2 ∗ A3 ∗ A4 ∗ A5 ∗ A6 ∗ A7) ⊢ iprop(A1 ∗ A2 ∗ A3 ∗ A4 ∗ A5 ∗ A6 ∗ A7 ∗ S) := by
    iintro ⟨HS, H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  exact BI.equiv_iff.mp ⟨h₁, h₂⟩

/-- The region's plain invariant — every scoped buffer that is no staging buffer of this region at some contents, the
    generator register at some state — with the accumulator set apart as a memref owned at some contents.  (The
    accumulator is the last of the eight scoped buffers; it is brought to the front.) -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq, sep_last_first]; simp only [scM1, owns_whole]; try rfl

end Cert.Kernel.Fr

end
-- ==== Proof.K.R1RunA.lean ====
/-
  The second projection's kernel body at a FIRST contraction step (reset taken, final store not taken), run whole:
  the accumulator, found at anything, is reset to zero and then receives zero plus the block product of the activation
  tile and the weight tile; the output window's buffer is not touched.  The accumulator's final contents are recorded
  as the list of pieces the body's stores write, latest first, which is what the run itself finds.
-/
import proofs.«159095_j3204045603931_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.R1RunB.lean ====
/-
  The second projection's kernel body at a MIDDLE contraction step (neither branch taken), run whole: the accumulator,
  found at what the step before left, receives that plus the block product of the activation tile and the weight tile;
  the output window's buffer is not touched.
-/
import proofs.«159095_j3204045603931_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.R1RunC.lean ====
/-
  The second projection's kernel body at a LAST contraction step (reset not taken, final store taken), run whole: the
  accumulator, found at what the step before left, receives that plus the block product of the activation tile and the
  weight tile, and the output window's buffer, found at anything, is stored whole with the accumulator.
-/
import proofs.«159095_j3204045603931_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) :
    Σ' (L2 : List (View.Piece (Elt F) S1x256x2048 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.R1Body.lean ====
/-
  The second projection's kernel region: what the body leaves at each of the 128 points, and the body obligation.

  At a point `t` the accumulator holds: at a first contraction step, zero plus the block product of the activation
  tile and the weight tile; otherwise what point `t - 1` left plus that block product (`outsAt1`'s second component,
  by recursion on the point).  The output window's buffer is stored only at a last contraction step, whole, with the
  accumulator (`outsAt1`'s first component there; elsewhere the window is idle and that component is not consulted).
  The region invariant carries the accumulator at exactly these contents from point to point; before the first point
  and after the last it is the plain invariant (the accumulator at anything).
-/
import proofs.«159095_j3204045603931_1_alg».proof.Proof.K.R1RunA
import proofs.«159095_j3204045603931_1_alg».proof.Proof.K.R1RunB
import proofs.«159095_j3204045603931_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first contraction step the output window gets no store (no pieces). -/
def out1_A_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) : Vec F S1x256x2048 .f32 :=
  VO1.read (Elt F) (VO1.writes (Elt F) VO1.junk (kernelRun1_A c i arg3 harg3 arg4 harg4 arg5 harg5 arg6 harg6 hc0 hc1 x0 x1).1)

/-- The accumulator's pieces there tile it, so they cover it. -/
theorem scover1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) (y : S256x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S256x2048.size (by sl_kernel_rfl) y

/-- What a first contraction step leaves in the accumulator. -/
def sout1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) : Vec F S256x2048 .f32 :=
  VS1.read (Elt F) (VS1.writes (Elt F) VS1.junk (kernelRun1_A c i arg3 harg3 arg4 harg4 arg5 harg5 arg6 harg6 hc0 hc1 x0 x1).2.1)

/-- At a middle step the output window gets no store either. -/
def out1_B_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) : Vec F S1x256x2048 .f32 :=
  VO1.read (Elt F) (VO1.writes (Elt F) VO1.junk (kernelRun1_B c i arg3 harg3 arg4 harg4 arg5 harg5 arg6 harg6 hc0 hc1 x0 x1 xs0).1)

theorem scover1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) (y : S256x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S256x2048.size (by sl_kernel_rfl) y

/-- What a middle step leaves in the accumulator, over what the step before left. -/
def sout1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) : Vec F S256x2048 .f32 :=
  VS1.read (Elt F) (VS1.writes (Elt F) VS1.junk (kernelRun1_B c i arg3 harg3 arg4 harg4 arg5 harg5 arg6 harg6 hc0 hc1 x0 x1 xs0).2.1)

/-- At a last step the output window's one store covers its block. -/
theorem cover1_C_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) (y : S1x256x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x256x2048.size (by sl_kernel_rfl) y

/-- What a last step leaves in the output window's buffer. -/
def out1_C_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) : Vec F S1x256x2048 .f32 :=
  VO1.read (Elt F) (VO1.writes (Elt F) VO1.junk (kernelRun1_C c i arg3 harg3 arg4 harg4 arg5 harg5 arg6 harg6 hc0 hc1 x0 x1 xs0).1)

theorem scover1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) (y : S256x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S256x2048.size (by sl_kernel_rfl) y

/-- What a last step leaves in the accumulator. -/
def sout1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) : Vec F S256x2048 .f32 :=
  VS1.read (Elt F) (VS1.writes (Elt F) VS1.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output window's buffer and the accumulator hold after the body at position `n`: the case `n % 4` selects,
    run on the point's blocks, the accumulator read at what position `n - 1` left. -/
def outsAt1 (c : Dev nD) : (n : ℕ) → n < cfg1.N → Vec F S1x256x2048 .f32 × Vec F S256x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first contraction step. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

/-- Before position `n`: the plain invariant at the start; afterwards the accumulator at what position `n - 1` left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The region's proof data on core `c`: the arrays as the region finds them; after the body at point `t` each
    input window's buffer at its block, the output window's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input windows' buffers hold their blocks; `t % 4` says which case the point is in;
    the invariant hands the body the accumulator at what the point before left (at anything before the first point, and
    at a first contraction step the contents are not read), and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    have hnc1 : ¬cond1_1 (grid1.coords t) := fun h => h1 ((hcond1_1 t).mp h)
    rw [Dat.leavesExact_idle (dat1 V c) 2 t (idleAt1_2 t hnc1) (noFlush1_2 t hnc1)]
    rw [outsAt1_A V c t h0 h1]
    unfold sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) hnc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) hnc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [outsAt1_C V c t h0 h1]
      unfold out1_C_2 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ hnc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · have hnc1 : ¬cond1_1 (grid1.coords t) := fun h => h1 ((hcond1_1 t).mp h)
      rw [Dat.leavesExact_idle (dat1 V c) 2 t (idleAt1_2 t hnc1) (noFlush1_2 t hnc1)]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ hnc0 hnc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.Kernel.Fr

end
-- ==== Proof.K.Run.lean ====
/-
  The whole program's run: a reshape, the first projection's region, the second projection's region, a reshape.

  The TensorCore's unscoped buffers are followed through the four items as a fold from the launch memory: a reshape
  writes its result buffer; a region changes exactly its windows' arrays, to what the pipeline's write-backs leave
  (an input window's array as it was).  Every weakly fair execution terminates, and every final memory holds every
  unscoped buffer at the last fold — the three argument arrays as launched (no item writes one), and the result at the
  reshape of what the second region leaves in its output array.
-/
import proofs.«159095_j3204045603931_1_alg».proof.Proof.K.R0Body
import proofs.«159095_j3204045603931_1_alg».proof.Proof.K.R1Body
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first reshape (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape. -/
abbrev W4 : Dev nD → Valuation τ sig (Elt F) := fun c => StableHlo.after hostOps2 (W3 m c)

/-! ## The proof data family and what rides beside the buffers -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at the contents before it, left with them at the contents
    after it.  Its windows' arrays are split out of the unscoped buffers at entry and put back, at what the write-backs
    leave, at exit; the generator register and the scoped buffers pass through the region invariant; nothing is owed
    and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    rw [show (pdats m 0 c).Φ 0 = (dat0 (V1 m) c).Φ 0 from rfl]
    unfold Pipeline.ΦA at h
    iintro ⟨Hp, -, Hr⟩
    iapply h
    isplitl [Hr]; · iexact Hr
    iexact Hp
  hout c := by
    rw [Pipeline.ownSems0_none]
    have h := hout0 (V1 m) c
    rw [show (pdats m 0 c).Φ (Fin.last (Pipeline.pin (pcfgs (F := F)) adm 0).N) = (dat0 (V1 m) c).Φ (Fin.last cfg0.N) from rfl]
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its windows' arrays are split out of the unscoped buffers at entry and put back, at what the write-backs
    leave, at exit; the generator register and the scoped buffers pass through the region invariant; nothing is owed
    and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    rw [show (pdats m 1 c).Φ 0 = (dat1 (V2 m) c).Φ 0 from rfl]
    unfold Pipeline.ΦA at h
    iintro ⟨Hp, -, Hr⟩
    iapply h
    isplitl [Hr]; · iexact Hr
    iexact Hp
  hout c := by
    rw [Pipeline.ownSems0_none]
    have h := hout1 (V2 m) c
    rw [show (pdats m 1 c).Φ (Fin.last (Pipeline.pin (pcfgs (F := F)) adm 1).N) = (dat1 (V2 m) c).Φ (Fin.last cfg1.N) from rfl]
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]
theorem main_run (c : Dev nD) : main (F := F) c = Pipeline.Seg.run (segs m) := (main_chain c).trans (by chain_rfl)

/-- The last boundary's state without the debt: every unscoped buffer at the last fold, the generator register. -/
abbrev Tₙ (c : Dev nD) : sProp 𝕄 := iprop(StableHlo.held (c : Thread nD τ) (Pipeline.ucRefs τ sig) (W4 m c) ∗ ∃ r, prngReg c r)

set_option backward.isDefEq.respectTransparency.types false in
/-- Every weakly fair execution terminates, nothing faulting, and every final memory holds every unscoped buffer at
    the last fold `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.K.Final.lean ====
/-
  What the last fold holds.  No item writes an argument array (the reshapes write their own result buffers; a region
  changes only its output array), so each argument ends as launched; the result buffer is the reshape of the second
  region's output array, whose second operand is the third argument as launched and whose first operand is the first
  region's output array, itself computed from the reshape of the first argument and the second argument as launched.
-/
import proofs.«159095_j3204045603931_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first reshape writes only its result buffer. -/
theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The last reshape writes only the result buffer. -/
theorem W4_of_ne (c : Dev nD) (b : Ref sig .tc) (hb : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The first argument is no window's array in either region. -/
theorem W4_main_arg0 (c : Dev nD) : W4 m c (Proc.devRef .tc main_arg0) = m ((c : Thread nD τ).loc main_arg0) :=
  (W4_of_ne m c main_arg0 (by decide)).trans <| (W3_of_ne m c main_arg0 (by decide)).trans <|
    (W2_of_ne m c main_arg0 (by decide)).trans (W1_of_ne m c main_arg0 (by decide))

/-- The second argument is the first region's weight window: an input window's array is left as entered. -/
theorem W2_main_arg1 (c : Dev nD) : W2 m c (Proc.devRef .tc main_arg1) = m ((c : Thread nD τ).loc main_arg1) :=
  (W2_arr m c 1).trans <| ((dat0 (V1 m) c).arrAt_in 1 rfl _).trans <| (A_eq0 (V1 m) c 1).trans (W1_of_ne m c main_arg1 (by decide))
theorem W4_main_arg1 (c : Dev nD) : W4 m c (Proc.devRef .tc main_arg1) = m ((c : Thread nD τ).loc main_arg1) :=
  (W4_of_ne m c main_arg1 (by decide)).trans <| (W3_of_ne m c main_arg1 (by decide)).trans (W2_main_arg1 m c)

/-- The third argument is the second region's weight window. -/
theorem W2_main_arg2 (c : Dev nD) : W2 m c (Proc.devRef .tc main_arg2) = m ((c : Thread nD τ).loc main_arg2) :=
  (W2_of_ne m c main_arg2 (by decide)).trans (W1_of_ne m c main_arg2 (by decide))
theorem W3_main_arg2 (c : Dev nD) : W3 m c (Proc.devRef .tc main_arg2) = m ((c : Thread nD τ).loc main_arg2) :=
  (W3_arr m c 1).trans <| ((dat1 (V2 m) c).arrAt_in 1 rfl _).trans <| (A_eq1 (V2 m) c 1).trans (W2_main_arg2 m c)
theorem W4_main_arg2 (c : Dev nD) : W4 m c (Proc.devRef .tc main_arg2) = m ((c : Thread nD τ).loc main_arg2) :=
  (W4_of_ne m c main_arg2 (by decide)).trans (W3_main_arg2 m c)

/-- The tokens the first region reads are the reshape of the first argument. -/
theorem W1_main_v0 (c : Dev nD) :
    W1 m c (Proc.devRef .tc main_v0) = shapeCast S8x1024x2048 (m ((c : Thread nD τ).loc main_arg0)) shapeCasts_S8192x2048_S8x1024x2048 := by
  dsimp only [W1, hostOps0]; after_results; rfl

/-- The result is the reshape of the second region's output array. -/
theorem W4_main_v3 (c : Dev nD) :
    W4 m c (Proc.devRef .tc main_v3) = shapeCast S8192x2048 (W3 m c (Proc.devRef .tc main_v2)) shapeCasts_S8x1024x2048_S8192x2048 := by
  dsimp only [W4, hostOps2]; after_results; rfl

/-- The second region's output array at its exit, and the first region's at its exit, are what the pipelines leave. -/
theorem W3_main_v2 (c : Dev nD) : W3 m c (Proc.devRef .tc main_v2) = (dat1 (V2 m) c).arrAt 2 cfg1.N := W3_arr m c 2
theorem W2_main_v1 (c : Dev nD) : W2 m c (Proc.devRef .tc main_v1) = (dat0 (V1 m) c).arrAt 2 cfg0.N := W2_arr m c 2

/-- The frame: every weakly fair execution terminates and the three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run m ρ)

end Cert.Kernel.Fr

end
-- ==== Proof.KI.R0Base.lean ====
/-
  The first projection's kernel region, at the contents `V` the region finds in the TensorCore's buffers.

  The grid is 8 experts × 4 token tiles × 4 contraction steps, 128 points in row-major order, so point `t` is at
  contraction step `t % 4`.  Here: each window's block at a point read off `V`; the body's two branch conditions
  ("first contraction step", "last contraction step") as facts about `t % 4`; at which points the output window is
  idle; the accumulator buffer the kernel carries from point to point, and the region invariant's shape around it.
-/
import proofs.«159095_j3204045603931_1_alg».proof.Proof.Gen.KernelIdeal.Launch
import proofs.«159095_j3204045603931_1_alg».proof.Proof.Gen.KernelIdeal.Skeleton
import proofs.«159095_j3204045603931_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's current staging buffer holds its block at every point, whatever proof data has `V`'s array
    and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first contraction step": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last contraction step": the gated product is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last contraction step the body stores nothing into the output window, -/
theorem idleAt0_2 : ∀ t : Fin cfg0.N, ¬cond0_1 (grid0.coords t) → cfg0.idle 2 (grid0.coords t) = true := by decide +kernel
/-- and the pipeline does not write its block back; -/
theorem noFlush0_2 : ∀ t : Fin cfg0.N, ¬cond0_1 (grid0.coords t) → (cfg0.win 2).flush t = false := by decide +kernel
/-- on it the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .bf16 := win0_2.stage (cfg0.slots t 2)
abbrev hs0_2 (t : Fin cfg0.N) : (ms0_2 t).IsWhole := hstage0_2 ((cfg0.slots t 2).cast nbuf0_2)
/-- The accumulator: a whole buffer of the kernel's own, carried from point to point. -/
abbrev scM0 : Memref sig .tc .vmem S256x4096 .f32 := Memref.whole cc0_scratch0
/-- One staging buffer of the output window and the accumulator, as views through which contents are stated. -/
abbrev VO0 : View sig .tc .vmem S1x256x2048 .bf16 := (Memref.whole cc0_stg2_0 : Memref sig .tc .vmem S1x256x2048 .bf16).view
abbrev VS0 : View sig .tc .vmem S256x4096 .f32 := scM0.view

/-! ## The region invariant's shape -/

/-- The core's other scoped buffers (the second region's staging buffers and accumulator), each at some contents:
    they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's plain invariant — every scoped buffer that is no staging buffer of this region at some contents, the
    generator register at some state — with the accumulator set apart as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Fr

end
-- ==== Proof.KI.R0RunA.lean ====
/-
  The first projection's kernel body at a FIRST contraction step (reset taken, final store not taken), run whole:
  the accumulator, found at anything, is reset to zero and then receives zero plus this step's block product; the
  output window's buffer is not touched.  The accumulator's final contents are recorded as the list of pieces the
  body's stores write, latest first, which is what the run itself finds.
-/
import proofs.«159095_j3204045603931_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) :
    Σ' (L2 : List (View.Piece (Elt F) S1x256x2048 .bf16)), { LS0 : List (View.Piece (Elt F) S256x4096 .f32) //
      ∀ (xi2 : Vec F S1x256x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨[], ?_, fun xi2 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R0RunB.lean ====
/-
  The first projection's kernel body at a MIDDLE contraction step (neither branch taken), run whole: the accumulator,
  found at what the step before left, receives that plus this step's block product; the output window's buffer is not
  touched.
-/
import proofs.«159095_j3204045603931_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) :
    Σ' (L2 : List (View.Piece (Elt F) S1x256x2048 .bf16)), { LS0 : List (View.Piece (Elt F) S256x4096 .f32) //
      ∀ (xi2 : Vec F S1x256x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨[], ?_, fun xi2 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R0RunC.lean ====
/-
  The first projection's kernel body at a LAST contraction step (reset not taken, final store taken), run whole: the
  accumulator, found at what the step before left, receives that plus this step's block product, and the output
  window's buffer, found at anything, is stored whole with the gated product of the accumulator's two halves.
-/
import proofs.«159095_j3204045603931_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    Σ' (L2 : List (View.Piece (Elt F) S1x256x2048 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__gate_up_kernel i arg3 harg3 arg4 harg4 arg5 harg5 arg6 harg6) K } := by
  refine ⟨?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.R0Body.lean ====
/-
  The first projection's kernel region: what the body leaves at each of the 128 points, and the body obligation.

  At a point `t` the accumulator holds: at a first contraction step, zero plus the step's block product; otherwise
  what point `t - 1` left plus the step's block product (`outsAt0`'s second component, by recursion on the point).
  The output window's buffer is stored only at a last contraction step, with the gated product of the accumulator's
  halves (`outsAt0`'s first component there; elsewhere the window is idle and that component is not consulted).
  The region invariant carries the accumulator at exactly these contents from point to point; before the first point
  and after the last it is the plain invariant (the accumulator at anything).
-/
import proofs.«159095_j3204045603931_1_alg».proof.Proof.KI.R0RunA
import proofs.«159095_j3204045603931_1_alg».proof.Proof.KI.R0RunB
import proofs.«159095_j3204045603931_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first contraction step the output window gets no store (no pieces). -/
def out0_A_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S1x256x2048 .bf16 :=
  VO0.read (Elt F) (VO0.writes (Elt F) VO0.junk (kernelRun0_A c i arg3 harg3 arg4 harg4 arg5 harg5 arg6 harg6 hc0 hc1 x0 x1).1)

/-- The accumulator's pieces there tile it, so they cover it. -/
theorem scover0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) (y : S256x4096.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x4096.size (by sl_kernel_rfl) y

/-- What a first contraction step leaves in the accumulator. -/
def sout0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S256x4096 .f32 :=
  VS0.read (Elt F) (VS0.writes (Elt F) VS0.junk (kernelRun0_A c i arg3 harg3 arg4 harg4 arg5 harg5 arg6 harg6 hc0 hc1 x0 x1).2.1)

/-- At a middle step the output window gets no store either. -/
def out0_B_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S1x256x2048 .bf16 :=
  VO0.read (Elt F) (VO0.writes (Elt F) VO0.junk (kernelRun0_B c i arg3 harg3 arg4 harg4 arg5 harg5 arg6 harg6 hc0 hc1 x0 x1 xs0).1)

theorem scover0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) (y : S256x4096.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x4096.size (by sl_kernel_rfl) y

/-- What a middle step leaves in the accumulator, over what the step before left. -/
def sout0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S256x4096 .f32 :=
  VS0.read (Elt F) (VS0.writes (Elt F) VS0.junk (kernelRun0_B c i arg3 harg3 arg4 harg4 arg5 harg5 arg6 harg6 hc0 hc1 x0 x1 xs0).2.1)

/-- At a last step the output window's one store covers its block. -/
theorem cover0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S1x256x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x256x2048.size (by sl_kernel_rfl) y

/-- What a last step leaves in the output window's buffer. -/
def out0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S1x256x2048 .bf16 :=
  VO0.read (Elt F) (VO0.writes (Elt F) VO0.junk (kernelRun0_C c i arg3 harg3 arg4 harg4 arg5 harg5 arg6 harg6 hc0 hc1 x0 x1 xs0).1)

theorem scover0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S256x4096.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x4096.size (by sl_kernel_rfl) y

/-- What a last step leaves in the accumulator. -/
def sout0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S256x4096 .f32 :=
  VS0.read (Elt F) (VS0.writes (Elt F) VS0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output window's buffer and the accumulator hold after the body at position `n`: the case `n % 4` selects,
    run on the point's blocks, the accumulator read at what position `n - 1` left. -/
def outsAt0 (c : Dev nD) : (n : ℕ) → n < cfg0.N → Vec F S1x256x2048 .bf16 × Vec F S256x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a first contraction step. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle step: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

/-- Before position `n`: the plain invariant at the start; afterwards the accumulator at what position `n - 1` left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The region's proof data on core `c`: the arrays as the region finds them; after the body at point `t` each
    input window's buffer at its block, the output window's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input windows' buffers hold their blocks; `t % 4` says which case the point is in;
    the invariant hands the body the accumulator at what the point before left (at anything before the first point, and
    at a first contraction step the contents are not read), and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val % 4 = 0
  · have h1 : ¬t.val % 4 = 3 := by omega
    have hnc1 : ¬cond0_1 (grid0.coords t) := fun h => h1 ((hcond0_1 t).mp h)
    rw [Dat.leavesExact_idle (dat0 V c) 2 t (idleAt0_2 t hnc1) (noFlush0_2 t hnc1)]
    rw [outsAt0_A V c t h0 h1]
    unfold sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) hnc1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_2 sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ hnc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hnc1 : ¬cond0_1 (grid0.coords t) := fun h => h1 ((hcond0_1 t).mp h)
      rw [Dat.leavesExact_idle (dat0 V c) 2 t (idleAt0_2 t hnc1) (noFlush0_2 t hnc1)]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ hnc0 hnc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The plain invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the plain one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end

end Cert.KernelIdeal.Fr

end
-- ==== Proof.KI.R1Base.lean ====
/-
  The second projection's kernel region, at the contents `V` the region finds in the TensorCore's buffers.

  The grid is 8 experts × 4 token tiles × 4 contraction steps, 128 points in row-major order, so point `t` is at
  contraction step `t % 4`.  Here: each window's block at a point read off `V`; the body's two branch conditions
  ("first contraction step", "last contraction step") as facts about `t % 4`; at which points the output window is
  idle; the accumulator buffer the kernel carries from point to point, and the region invariant's shape around it.
-/
import proofs.«159095_j3204045603931_1_alg».proof.Proof.Gen.KernelIdeal.Launch
import proofs.«159095_j3204045603931_1_alg».proof.Proof.Gen.KernelIdeal.Skeleton
import proofs.«159095_j3204045603931_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's current staging buffer holds its block at every point, whatever proof data has `V`'s
    array and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first contraction step": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction step": the accumulated product is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last contraction step the body stores nothing into the output window, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- on it the window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2048 .f32 := win1_2.stage (cfg1.slots t 2)
abbrev hs1_2 (t : Fin cfg1.N) : (ms1_2 t).IsWhole := hstage1_2 ((cfg1.slots t 2).cast nbuf1_2)
/-- The accumulator: a whole buffer of the kernel's own, carried from point to point. -/
abbrev scM1 : Memref sig .tc .vmem S256x2048 .f32 := Memref.whole cc1_scratch0
/-- One staging buffer of the output window and the accumulator, as views through which contents are stated. -/
abbrev VO1 : View sig .tc .vmem S1x256x2048 .f32 := (Memref.whole cc1_stg2_0 : Memref sig .tc .vmem S1x256x2048 .f32).view
abbrev VS1 : View sig .tc .vmem S256x2048 .f32 := scM1.view

/-! ## The region invariant's shape -/

/-- The core's other scoped buffers (the first region's staging buffers and accumulator), each at some contents:
    they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Separating conjunction is commutative and associative: the last of eight conjuncts may stand first. -/
theorem sep_last_first {M : Type} [URA M] (A1 A2 A3 A4 A5 A6 A7 S : sProp M) :
    iprop(A1 ∗ A2 ∗ A3 ∗ A4 ∗ A5 ∗ A6 ∗ A7 ∗ S) = iprop(S ∗ A1 ∗ A2 ∗ A3 ∗ A4 ∗ A5 ∗ A6 ∗ A7) := by
  have h₁ : iprop(A1 ∗ A2 ∗ A3 ∗ A4 ∗ A5 ∗ A6 ∗ A7 ∗ S) ⊢ iprop(S ∗ A1 ∗ A2 ∗ A3 ∗ A4 ∗ A5 ∗ A6 ∗ A7) := by
    iintro ⟨H1, H2, H3, H4, H5, H6, H7, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  have h₂ : iprop(S ∗ A1 ∗ A2 ∗ A3 ∗ A4 ∗ A5 ∗ A6 ∗ A7) ⊢ iprop(A1 ∗ A2 ∗ A3 ∗ A4 ∗ A5 ∗ A6 ∗ A7 ∗ S) := by
    iintro ⟨HS, H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  exact BI.equiv_iff.mp ⟨h₁, h₂⟩

/-- The region's plain invariant — every scoped buffer that is no staging buffer of this region at some contents, the
    generator register at some state — with the accumulator set apart as a memref owned at some contents.  (The
    accumulator is the last of the eight scoped buffers; it is brought to the front.) -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq, sep_last_first]; simp only [scM1, owns_whole]; try rfl

end Cert.KernelIdeal.Fr

end
-- ==== Proof.KI.R1RunA.lean ====
/-
  The second projection's kernel body at a FIRST contraction step (reset taken, final store not taken), run whole:
  the accumulator, found at anything, is reset to zero and then receives zero plus the block product of the activation
  tile and the weight tile; the output window's buffer is not touched.  The accumulator's final contents are recorded
  as the list of pieces the body's stores write, latest first, which is what the run itself finds.
-/
import proofs.«159095_j3204045603931_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R1RunB.lean ====
/-
  The second projection's kernel body at a MIDDLE contraction step (neither branch taken), run whole: the accumulator,
  found at what the step before left, receives that plus the block product of the activation tile and the weight tile;
  the output window's buffer is not touched.
-/
import proofs.«159095_j3204045603931_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) :
    Σ' (L2 : List (View.Piece (Elt F) S1x256x2048 .f32)), { LS0 : List (View.Piece (Elt F) S256x2048 .f32) //
      ∀ (xi2 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R1RunC.lean ====
/-
  The second projection's kernel body at a LAST contraction step (reset not taken, final store taken), run whole: the
  accumulator, found at what the step before left, receives that plus the block product of the activation tile and the
  weight tile, and the output window's buffer, found at anything, is stored whole with the accumulator.
-/
import proofs.«159095_j3204045603931_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) :
    Σ' (L2 : List (View.Piece (Elt F) S1x256x2048 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.R1Body.lean ====
/-
  The second projection's kernel region: what the body leaves at each of the 128 points, and the body obligation.

  At a point `t` the accumulator holds: at a first contraction step, zero plus the block product of the activation
  tile and the weight tile; otherwise what point `t - 1` left plus that block product (`outsAt1`'s second component,
  by recursion on the point).  The output window's buffer is stored only at a last contraction step, whole, with the
  accumulator (`outsAt1`'s first component there; elsewhere the window is idle and that component is not consulted).
  The region invariant carries the accumulator at exactly these contents from point to point; before the first point
  and after the last it is the plain invariant (the accumulator at anything).
-/
import proofs.«159095_j3204045603931_1_alg».proof.Proof.KI.R1RunA
import proofs.«159095_j3204045603931_1_alg».proof.Proof.KI.R1RunB
import proofs.«159095_j3204045603931_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first contraction step the output window gets no store (no pieces). -/
def out1_A_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) : Vec F S1x256x2048 .f32 :=
  VO1.read (Elt F) (VO1.writes (Elt F) VO1.junk (kernelRun1_A c i arg3 harg3 arg4 harg4 arg5 harg5 arg6 harg6 hc0 hc1 x0 x1).1)

/-- The accumulator's pieces there tile it, so they cover it. -/
theorem scover1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) (y : S256x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S256x2048.size (by sl_kernel_rfl) y

/-- What a first contraction step leaves in the accumulator. -/
def sout1_A (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i)
    (x0 : Vec F S1x256x512 .bf16) (x1 : Vec F S1x512x2048 .f32) : Vec F S256x2048 .f32 :=
  VS1.read (Elt F) (VS1.writes (Elt F) VS1.junk (kernelRun1_A c i arg3 harg3 arg4 harg4 arg5 harg5 arg6 harg6 hc0 hc1 x0 x1).2.1)

/-- At a middle step the output window gets no store either. -/
def out1_B_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) : Vec F S1x256x2048 .f32 :=
  VO1.read (Elt F) (VO1.writes (Elt F) VO1.junk (kernelRun1_B c i arg3 harg3 arg4 harg4 arg5 harg5 arg6 harg6 hc0 hc1 x0 x1 xs0).1)

theorem scover1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) (y : S256x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S256x2048.size (by sl_kernel_rfl) y

/-- What a middle step leaves in the accumulator, over what the step before left. -/
def sout1_B (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i)
    (x0 : Vec F S1x256x512 .bf16) (x1 : Vec F S1x512x2048 .f32) (xs0 : Vec F S256x2048 .f32) : Vec F S256x2048 .f32 :=
  VS1.read (Elt F) (VS1.writes (Elt F) VS1.junk (kernelRun1_B c i arg3 harg3 arg4 harg4 arg5 harg5 arg6 harg6 hc0 hc1 x0 x1 xs0).2.1)

/-- At a last step the output window's one store covers its block. -/
theorem cover1_C_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) (y : S1x256x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x256x2048.size (by sl_kernel_rfl) y

/-- What a last step leaves in the output window's buffer. -/
def out1_C_2 (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) : Vec F S1x256x2048 .f32 :=
  VO1.read (Elt F) (VO1.writes (Elt F) VO1.junk (kernelRun1_C c i arg3 harg3 arg4 harg4 arg5 harg5 arg6 harg6 hc0 hc1 x0 x1 xs0).1)

theorem scover1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) (y : S256x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S256x2048.size (by sl_kernel_rfl) y

/-- What a last step leaves in the accumulator. -/
def sout1_C (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i)
    (x0 : Vec F S1x256x512 .bf16) (x1 : Vec F S1x512x2048 .f32) (xs0 : Vec F S256x2048 .f32) : Vec F S256x2048 .f32 :=
  VS1.read (Elt F) (VS1.writes (Elt F) VS1.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output window's buffer and the accumulator hold after the body at position `n`: the case `n % 4` selects,
    run on the point's blocks, the accumulator read at what position `n - 1` left. -/
def outsAt1 (c : Dev nD) : (n : ℕ) → n < cfg1.N → Vec F S1x256x2048 .f32 × Vec F S256x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first contraction step. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

/-- Before position `n`: the plain invariant at the start; afterwards the accumulator at what position `n - 1` left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The region's proof data on core `c`: the arrays as the region finds them; after the body at point `t` each
    input window's buffer at its block, the output window's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input windows' buffers hold their blocks; `t % 4` says which case the point is in;
    the invariant hands the body the accumulator at what the point before left (at anything before the first point, and
    at a first contraction step the contents are not read), and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    have hnc1 : ¬cond1_1 (grid1.coords t) := fun h => h1 ((hcond1_1 t).mp h)
    rw [Dat.leavesExact_idle (dat1 V c) 2 t (idleAt1_2 t hnc1) (noFlush1_2 t hnc1)]
    rw [outsAt1_A V c t h0 h1]
    unfold sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) hnc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) hnc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [outsAt1_C V c t h0 h1]
      unfold out1_C_2 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ hnc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · have hnc1 : ¬cond1_1 (grid1.coords t) := fun h => h1 ((hcond1_1 t).mp h)
      rw [Dat.leavesExact_idle (dat1 V c) 2 t (idleAt1_2 t hnc1) (noFlush1_2 t hnc1)]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ hnc0 hnc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Fr

end
-- ==== Proof.KI.Run.lean ====
/-
  The whole program's run: a reshape, the first projection's region, the second projection's region, a reshape.

  The TensorCore's unscoped buffers are followed through the four items as a fold from the launch memory: a reshape
  writes its result buffer; a region changes exactly its windows' arrays, to what the pipeline's write-backs leave
  (an input window's array as it was).  Every weakly fair execution terminates, and every final memory holds every
  unscoped buffer at the last fold — the three argument arrays as launched (no item writes one), and the result at the
  reshape of what the second region leaves in its output array.
-/
import proofs.«159095_j3204045603931_1_alg».proof.Proof.KI.R0Body
import proofs.«159095_j3204045603931_1_alg».proof.Proof.KI.R1Body
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first reshape (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape. -/
abbrev W4 : Dev nD → Valuation τ sig (Elt F) := fun c => StableHlo.after hostOps2 (W3 m c)

/-! ## The proof data family and what rides beside the buffers -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at the contents before it, left with them at the contents
    after it.  Its windows' arrays are split out of the unscoped buffers at entry and put back, at what the write-backs
    leave, at exit; the generator register and the scoped buffers pass through the region invariant; nothing is owed
    and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    rw [show (pdats m 0 c).Φ 0 = (dat0 (V1 m) c).Φ 0 from rfl]
    unfold Pipeline.ΦA at h
    iintro ⟨Hp, -, Hr⟩
    iapply h
    isplitl [Hr]; · iexact Hr
    iexact Hp
  hout c := by
    rw [Pipeline.ownSems0_none]
    have h := hout0 (V1 m) c
    rw [show (pdats m 0 c).Φ (Fin.last (Pipeline.pin (pcfgs (F := F)) adm 0).N) = (dat0 (V1 m) c).Φ (Fin.last cfg0.N) from rfl]
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its windows' arrays are split out of the unscoped buffers at entry and put back, at what the write-backs
    leave, at exit; the generator register and the scoped buffers pass through the region invariant; nothing is owed
    and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    rw [show (pdats m 1 c).Φ 0 = (dat1 (V2 m) c).Φ 0 from rfl]
    unfold Pipeline.ΦA at h
    iintro ⟨Hp, -, Hr⟩
    iapply h
    isplitl [Hr]; · iexact Hr
    iexact Hp
  hout c := by
    rw [Pipeline.ownSems0_none]
    have h := hout1 (V2 m) c
    rw [show (pdats m 1 c).Φ (Fin.last (Pipeline.pin (pcfgs (F := F)) adm 1).N) = (dat1 (V2 m) c).Φ (Fin.last cfg1.N) from rfl]
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]
theorem main_run (c : Dev nD) : main (F := F) c = Pipeline.Seg.run (segs m) := (main_chain c).trans (by chain_rfl)

/-- The last boundary's state without the debt: every unscoped buffer at the last fold, the generator register. -/
abbrev Tₙ (c : Dev nD) : sProp 𝕄 := iprop(StableHlo.held (c : Thread nD τ) (Pipeline.ucRefs τ sig) (W4 m c) ∗ ∃ r, prngReg c r)

set_option backward.isDefEq.respectTransparency.types false in
/-- Every weakly fair execution terminates, nothing faulting, and every final memory holds every unscoped buffer at
    the last fold `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.KI.Final.lean ====
/-
  What the last fold holds.  No item writes an argument array (the reshapes write their own result buffers; a region
  changes only its output array), so each argument ends as launched; the result buffer is the reshape of the second
  region's output array, whose second operand is the third argument as launched and whose first operand is the first
  region's output array, itself computed from the reshape of the first argument and the second argument as launched.
-/
import proofs.«159095_j3204045603931_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first reshape writes only its result buffer. -/
theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The last reshape writes only the result buffer. -/
theorem W4_of_ne (c : Dev nD) (b : Ref sig .tc) (hb : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The first argument is no window's array in either region. -/
theorem W4_main_arg0 (c : Dev nD) : W4 m c (Proc.devRef .tc main_arg0) = m ((c : Thread nD τ).loc main_arg0) :=
  (W4_of_ne m c main_arg0 (by decide)).trans <| (W3_of_ne m c main_arg0 (by decide)).trans <|
    (W2_of_ne m c main_arg0 (by decide)).trans (W1_of_ne m c main_arg0 (by decide))

/-- The second argument is the first region's weight window: an input window's array is left as entered. -/
theorem W2_main_arg1 (c : Dev nD) : W2 m c (Proc.devRef .tc main_arg1) = m ((c : Thread nD τ).loc main_arg1) :=
  (W2_arr m c 1).trans <| ((dat0 (V1 m) c).arrAt_in 1 rfl _).trans <| (A_eq0 (V1 m) c 1).trans (W1_of_ne m c main_arg1 (by decide))
theorem W4_main_arg1 (c : Dev nD) : W4 m c (Proc.devRef .tc main_arg1) = m ((c : Thread nD τ).loc main_arg1) :=
  (W4_of_ne m c main_arg1 (by decide)).trans <| (W3_of_ne m c main_arg1 (by decide)).trans (W2_main_arg1 m c)

/-- The third argument is the second region's weight window. -/
theorem W2_main_arg2 (c : Dev nD) : W2 m c (Proc.devRef .tc main_arg2) = m ((c : Thread nD τ).loc main_arg2) :=
  (W2_of_ne m c main_arg2 (by decide)).trans (W1_of_ne m c main_arg2 (by decide))
theorem W3_main_arg2 (c : Dev nD) : W3 m c (Proc.devRef .tc main_arg2) = m ((c : Thread nD τ).loc main_arg2) :=
  (W3_arr m c 1).trans <| ((dat1 (V2 m) c).arrAt_in 1 rfl _).trans <| (A_eq1 (V2 m) c 1).trans (W2_main_arg2 m c)
theorem W4_main_arg2 (c : Dev nD) : W4 m c (Proc.devRef .tc main_arg2) = m ((c : Thread nD τ).loc main_arg2) :=
  (W4_of_ne m c main_arg2 (by decide)).trans (W3_main_arg2 m c)

/-- The tokens the first region reads are the reshape of the first argument. -/
theorem W1_main_v0 (c : Dev nD) :
    W1 m c (Proc.devRef .tc main_v0) = shapeCast S8x1024x2048 (m ((c : Thread nD τ).loc main_arg0)) shapeCasts_S8192x2048_S8x1024x2048 := by
  dsimp only [W1, hostOps0]; after_results; rfl

/-- The result is the reshape of the second region's output array. -/
theorem W4_main_v3 (c : Dev nD) :
    W4 m c (Proc.devRef .tc main_v3) = shapeCast S8192x2048 (W3 m c (Proc.devRef .tc main_v2)) shapeCasts_S8x1024x2048_S8192x2048 := by
  dsimp only [W4, hostOps2]; after_results; rfl

/-- The second region's output array at its exit, and the first region's at its exit, are what the pipelines leave. -/
theorem W3_main_v2 (c : Dev nD) : W3 m c (Proc.devRef .tc main_v2) = (dat1 (V2 m) c).arrAt 2 cfg1.N := W3_arr m c 2
theorem W2_main_v1 (c : Dev nD) : W2 m c (Proc.devRef .tc main_v1) = (dat0 (V1 m) c).arrAt 2 cfg0.N := W2_arr m c 2

/-- The frame: every weakly fair execution terminates and the three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run m ρ)

end Cert.KernelIdeal.Fr

end
-- ==== Proof.Spec.lean ====
/-
  The function both programs compute, as extended reals, between the two reshapes they share.

  The 8192 token rows are grouped as 8 experts of 1024 tokens: `h e t d`.  Per expert `e`:
    * `mm1 h w1` is the first projection, `(h_e · w1_e) t f = ∑ d, h e t d · w1 e d f` (4096 columns: the gate
      half in columns 0..2047, the up half in columns 2048..4095);
    * `gate g` multiplies the up half by the positive part of the gate half, column by column:
      `g e t (2048 + j) · max (g e t j) 0`;
    * `mm2 a w2` is the second projection, `∑ d, a e t d · w2 e d f`.
  `core h w1 w2 = mm2 (gate (mm1 h w1)) w2`.  Sums are finite sums in the commutative monoid of extended reals, so
  any grouping of the 2048 summands is the same sum.
-/
import Idealize.ShloMosaic.PureOps.Ideal
import Idealize.ShloMosaic.Lib.ValueIdx

noncomputable section

namespace Cert.Spec

open Idealize.ShloMosaic Idealize.ShloMosaic.ValueIdx

/-- tokens per expert: 8 × 1024 × 2048 -/
abbrev SH : Shape := ⟨3, ![8, 1024, 2048]⟩
/-- first weights: 8 × 2048 × 4096 -/
abbrev SW1 : Shape := ⟨3, ![8, 2048, 4096]⟩
/-- gate | up: 8 × 1024 × 4096 -/
abbrev SG : Shape := ⟨3, ![8, 1024, 4096]⟩
/-- second weights: 8 × 2048 × 2048 -/
abbrev SW2 : Shape := ⟨3, ![8, 2048, 2048]⟩

/-- The first projection at `(e, t, f)`: the row `t` of expert `e` against column `f` of that expert's weights. -/
def mm1 (h : SH.Idx → EReal) (w1 : SW1.Idx → EReal) : SG.Idx → EReal :=
  fun i => ∑ d : Fin 2048, h (ix3 (i 0) (i 1) d) * w1 (ix3 (i 0) d (i 2))

/-- The gated activation at `(e, t, j)`: the up half's entry times the positive part of the gate half's. -/
def gate (g : SG.Idx → EReal) : SH.Idx → EReal :=
  fun i => g (ix3 (i 0) (i 1) (⟨2048 + (i 2).val, by have := (i 2).isLt; simp only [Matrix.cons_val] at this; omega⟩ : Fin 4096))
    * max (g (ix3 (i 0) (i 1) (⟨(i 2).val, by have := (i 2).isLt; simp only [Matrix.cons_val] at this; omega⟩ : Fin 4096))) 0

/-- The second projection at `(e, t, f)`. -/
def mm2 (a : SH.Idx → EReal) (w2 : SW2.Idx → EReal) : SH.Idx → EReal :=
  fun i => ∑ d : Fin 2048, a (ix3 (i 0) (i 1) d) * w2 (ix3 (i 0) d (i 2))

/-- What both programs hold before their last reshape. -/
def core (h : SH.Idx → EReal) (w1 : SW1.Idx → EReal) (w2 : SW2.Idx → EReal) : SH.Idx → EReal :=
  mm2 (gate (mm1 h w1)) w2

end Cert.Spec

end
-- ==== Proof.Blocks.lean ====
/-
  A sum of 2048 extended reals is the sum of its four consecutive blocks of 512.

  The extended reals are a commutative monoid under addition, so a finite sum may be regrouped freely; no
  finiteness of the summands is involved.
-/
import Mathlib.Data.EReal.Basic
import Mathlib.Data.Fintype.BigOperators
import Mathlib.Algebra.BigOperators.Group.Finset.Basic

noncomputable section

namespace Cert.Spec

open scoped BigOperators

/-- A block of 512 consecutive terms starting at `a`, summed over `Fin 512` or over the naturals below 512. -/
theorem block_sum (g : ℕ → EReal) (a : ℕ) :
    ∑ j : Fin 512, g (a + j.val) = ∑ x ∈ Finset.range 512, g (a + x) :=
  Fin.sum_univ_eq_sum_range (fun x => g (a + x)) 512

/-- The sum of `g` over the naturals below 2048 = 512 + 512 + 512 + 512, block by block from the left. -/
theorem sum_four_blocks_nat (g : ℕ → EReal) :
    ((((0 : EReal) + ∑ j : Fin 512, g (0 * 512 + j.val)) + ∑ j : Fin 512, g (1 * 512 + j.val)) + ∑ j : Fin 512, g (2 * 512 + j.val)) + ∑ j : Fin 512, g (3 * 512 + j.val) = ∑ d : Fin 2048, g d.val := by
  have e0 : ∀ x : ℕ, 0 * 512 + x = x := fun x => by omega
  have e1 : ∀ x : ℕ, 1 * 512 + x = 512 + x := fun x => by omega
  have e2 : ∀ x : ℕ, 2 * 512 + x = 512 + 512 + x := fun x => by omega
  have e3 : ∀ x : ℕ, 3 * 512 + x = 512 + 512 + 512 + x := fun x => by omega
  rw [zero_add, block_sum g (0 * 512), block_sum g (1 * 512), block_sum g (2 * 512), block_sum g (3 * 512),
    Fin.sum_univ_eq_sum_range g 2048, show (2048 : ℕ) = 512 + 512 + 512 + 512 from rfl,
    Finset.sum_range_add, Finset.sum_range_add, Finset.sum_range_add]
  simp only [e0, e1, e2, e3]

/-- The same for a function on `Fin 2048`, the four block sums given by name. -/
theorem sum_four_blocks (f : Fin 2048 → EReal) (B : Fin 4 → EReal)
    (hB : ∀ k : Fin 4, B k = ∑ j : Fin 512, f ⟨k.val * 512 + j.val, by have := k.isLt; have := j.isLt; omega⟩) :
    ((((0 : EReal) + B 0) + B 1) + B 2) + B 3 = ∑ d : Fin 2048, f d := by
  let g : ℕ → EReal := fun n => if h : n < 2048 then f ⟨n, h⟩ else 0
  have hg : ∀ (n : ℕ) (h : n < 2048), g n = f ⟨n, h⟩ := fun n h => dif_pos h
  have hf : ∑ d : Fin 2048, f d = ∑ d : Fin 2048, g d.val :=
    Finset.sum_congr rfl fun d _ => (hg d.val d.isLt).symm
  have hblk : ∀ k : Fin 4, B k = ∑ j : Fin 512, g (k.val * 512 + j.val) := fun k =>
    (hB k).trans (Finset.sum_congr rfl fun j _ => (hg _ _).symm)
  rw [hf, hblk 0, hblk 1, hblk 2, hblk 3]
  exact sum_four_blocks_nat g

end Cert.Spec

end
-- ==== Proof.KI.R0Value.lean ====
/-
  The first projection's kernel region, read as values over the extended reals.

  Point `t` of the 128 is expert `t / 16`, token tile `t / 4 % 4`, contraction step `t % 4`.  Each step adds to the
  accumulator the product of a 256 × 512 block of the expert's tokens with a 512 × 4096 block of its weights, starting
  from zero at step 0; after step 3 the accumulator at row `r`, column `f` is
  `(((0 + B₀) + B₁) + B₂) + B₃` with `B_k = ∑ j < 512, h (e, row, 512 k + j) · w (e, 512 k + j, f)`, which is the whole
  2048-term sum `∑ d, h (e, row, d) · w (e, d, f)`.  The block written back at step 3 is, column by column, the up
  half of that times the positive part of the gate half.  The written blocks tile the output array, so it ends
  holding `gate (mm1 h w)`.
-/
import proofs.«159095_j3204045603931_1_alg».proof.Proof.KI.R0Body
import proofs.«159095_j3204045603931_1_alg».proof.Proof.Spec
import proofs.«159095_j3204045603931_1_alg».proof.Proof.Blocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The pieces each case leaves, as payloads of the point's blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- A first contraction step leaves the zero block plus the step's block product. -/
theorem sout0_A_eq (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) :
    sout0_A c i arg3 harg3 arg4 harg4 arg5 harg5 arg6 harg6 hc0 hc1 x0 x1 = k0_pay2 x0 x1 (k0_pay1 (F := F)) := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero (S := S256x4096) hz2, View.readCov_unit_zero (S := S256x4096) _ hz2]
  simp only [View.readAt_eq_ld, harg3.read_unread, harg4.read_unread,
    View.ld_unit_zero (S := S1x256x512) hz3, View.ld_unit_zero (S := S1x512x4096) hz3, View.ld_unit_zero (S := S256x4096) hz2]

/-- A middle step leaves what it found plus the step's block product. -/
theorem sout0_B_eq (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) :
    sout0_B c i arg3 harg3 arg4 harg4 arg5 harg5 arg6 harg6 hc0 hc1 x0 x1 xs0 = k0_pay2 x0 x1 xs0 := by
  unfold sout0_B
  rw [View.read_writes_eq_canon _ _ _ (scover0_B c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread,
    View.ld_unit_zero (S := S1x256x512) hz3, View.ld_unit_zero (S := S1x512x4096) hz3, View.ld_unit_zero (S := S256x4096) hz2]

/-- So does a last step, in the accumulator; -/
theorem sout0_C_eq (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    sout0_C c i arg3 harg3 arg4 harg4 arg5 harg5 arg6 harg6 hc0 hc1 x0 x1 xs0 = k0_pay2 x0 x1 xs0 := by
  unfold sout0_C
  rw [View.read_writes_eq_canon _ _ _ (scover0_C c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread,
    View.ld_unit_zero (S := S1x256x512) hz3, View.ld_unit_zero (S := S1x512x4096) hz3, View.ld_unit_zero (S := S256x4096) hz2]

/-- and in the output window's buffer it leaves the gated product of that accumulator's halves. -/
theorem out0_C_2_eq (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x2048 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3]
  simp only [View.readAt_eq_ld, harg3.read_unread, harg4.read_unread, harg6.read_unread, View.readCov_unit_zero (S := S256x4096) _ hz2,
    View.ld_unit_zero (S := S1x256x512) hz3, View.ld_unit_zero (S := S1x512x4096) hz3, View.ld_unit_zero (S := S256x4096) hz2]

/-! ## The payloads read at an index, over the extended reals -/

theorem lhs_mm_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_mm_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_mm_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_mm_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The step's update at row `r`, column `f`: what the accumulator held there plus the row of the token block
    against the column of the weight block. -/
theorem pay2_apply (x0 : Vec Ideal S1x256x512 .f32) (x1 : Vec Ideal S1x512x4096 .f32) (xs : Vec Ideal S256x4096 .f32)
    (r : Fin 256) (f : Fin 4096) :
    k0_pay2 x0 x1 xs (ix2 r f) = xs (ix2 r f) + ∑ j : Fin 512, x0 (ix3 (0 : Fin 1) r j) * x1 (ix3 (0 : Fin 1) j f) := by
  unfold k0_pay2
  refine (congrFun (shapeCast_self _ shapeCasts_S256x4096_S256x4096) (ix2 r f)).trans ?_
  refine congrArg (xs (ix2 r f) + ·) ?_
  refine (Ideal.matmul_constant_zero_apply dot_S256x512_S512x4096_S256x4096_1_0_0_1_n_n none _ _ (ix2 r f)).trans ?_
  rw [← Equiv.sum_comp (ValueIdx.contrEquiv1 dot_S256x512_S512x4096_S256x4096_1_0_0_1_n_n 512 rfl rfl).symm]
  refine Finset.sum_congr rfl fun k _ => ?_
  have hk := ValueIdx.contrEquiv1_symm_val dot_S256x512_S512x4096_S256x4096_1_0_0_1_n_n 512 rfl rfl k
  have el : dot_S256x512_S512x4096_S256x4096_1_0_0_1_n_n.lhsIdx (ix2 r f) ((ValueIdx.contrEquiv1 dot_S256x512_S512x4096_S256x4096_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S256x512_S512x4096_S256x4096_1_0_0_1_n_n.rhsIdx (ix2 r f) ((ValueIdx.contrEquiv1 dot_S256x512_S512x4096_S256x4096_1_0_0_1_n_n 512 rfl rfl).symm k) = ix2 k f := funext fun a => Fin.ext (by
    match a with
    | ⟨0, _⟩ => exact (rhs_mm_0 _ _).trans hk
    | ⟨1, _⟩ => exact rhs_mm_1 _ _)
  rw [el, er]
  show shapeCast S256x512 x0 shapeCasts_S1x256x512_S256x512 (ix2 r k) * shapeCast S512x4096 x1 shapeCasts_S1x512x4096_S512x4096 (ix2 k f) = _
  rw [shapeCast_1ab_ab_apply, shapeCast_1ab_ab_apply]

/-- The reset block is zero everywhere. -/
theorem pay1_apply (r : Fin 256) (f : Fin 4096) : (k0_pay1 (F := Ideal)) (ix2 r f) = 0 := by
  unfold k0_pay1
  refine (congrFun (shapeCast_self _ shapeCasts_S256x4096_S256x4096) (ix2 r f)).trans ?_
  exact Ideal.ofBits_zero_f32

/-- The gated product at row `r`, column `j`: the up half's entry times the positive part of the gate half's. -/
theorem pay3_apply (acc : Vec Ideal S256x4096 .f32) (u : Fin 1) (r : Fin 256) (j : Fin 2048) :
    k0_pay3 acc (ix3 u r j) = acc (ix2 r (⟨2048 + j.val, by omega⟩ : Fin 4096)) * max (acc (ix2 r (⟨j.val, by omega⟩ : Fin 4096))) 0 := by
  unfold k0_pay3
  refine (shapeCast_ab_1ab_apply _ shapeCasts_S256x2048_S1x256x2048 u r j).trans ?_
  show extractStridedSlice S256x2048 ![0, 2048] acc slices_S256x4096_o0_2048_S256x2048 (ix2 r j)
      * max (extractStridedSlice S256x2048 ![0, 0] acc slices_S256x4096_o0_0_S256x2048 (ix2 r j)) (Ideal.ofBits .f32 0x00000000#32) = _
  rw [slice2_axis1_apply 2048 acc slices_S256x4096_o0_2048_S256x2048 r j ⟨2048 + j.val, by omega⟩ rfl,
    slice2_axis1_apply 0 acc slices_S256x4096_o0_0_S256x2048 r j ⟨j.val, by omega⟩ (by show j.val = 0 + j.val; omega),
    Ideal.ofBits_zero_f32]

/-! ## The blocks, read where the index maps say -/

/-- The three windows' block indices at point `t`: expert `t / 16`, token tile `t / 4 % 4`, contraction step `t % 4`. -/
theorem idx_facts0 : ∀ t : Fin cfg0.N,
    win0_0.index t (0 : Fin 3) = t.val / 16 ∧ win0_0.index t (1 : Fin 3) = t.val / 4 % 4 ∧ win0_0.index t (2 : Fin 3) = t.val % 4
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0 :=
  (by decide +kernel : ∀ t : Fin grid0.N, _)

section
variable (V : (c : Dev nD) → (b : Ref sig .tc) → Buf (Elt F) ((c : Thread nD τ).loc b))

/-- The token array and the weight array as the region finds them, and the two input blocks at a point. -/
abbrev harr (c : Dev nD) : Vec F S8x1024x2048 .f32 := V c main_v0
abbrev warr (c : Dev nD) : Vec F S8x2048x4096 .f32 := V c main_arg1
abbrev xblk (c : Dev nD) (t : Fin cfg0.N) : Vec F S1x256x512 .f32 := iblk0 V c 0 t
abbrev wblk (c : Dev nD) (t : Fin cfg0.N) : Vec F S1x512x4096 .f32 := iblk0 V c 1 t

/-- The token block at point `t` holds rows `256 (t / 4 % 4) …`, columns `512 (t % 4) …` of expert `t / 16`. -/
theorem xblk_apply (c : Dev nD) (t : Fin cfg0.N) (u : Fin 1) (r : Fin 256) (j : Fin 512) (k : S8x1024x2048.Idx)
    (h0 : (k 0).val = t.val / 16) (h1 : (k 1).val = t.val / 4 % 4 * 256 + r.val) (h2 : (k 2).val = t.val % 4 * 512 + j.val) :
    xblk V c t (ix3 u r j) = harr V c k := by
  obtain ⟨e0, e1, e2, -⟩ := idx_facts0 t
  unfold xblk harr iblk0
  rw [View.read_apply]
  show V c main_v0 _ = V c main_v0 _
  congr 1
  funext a
  apply Fin.ext
  match a with
  | ⟨0, _⟩ => show win0_0.index t 0 * 1 + 1 * u.val = (k 0).val; rw [e0, h0]; omega
  | ⟨1, _⟩ => show win0_0.index t 1 * 256 + 1 * r.val = (k 1).val; rw [e1, h1]; omega
  | ⟨2, _⟩ => show win0_0.index t 2 * 512 + 1 * j.val = (k 2).val; rw [e2, h2]; omega

/-- The weight block at point `t` holds rows `512 (t % 4) …`, every column, of expert `t / 16`. -/
theorem wblk_apply (c : Dev nD) (t : Fin cfg0.N) (u : Fin 1) (j : Fin 512) (f : Fin 4096) (k : S8x2048x4096.Idx)
    (h0 : (k 0).val = t.val / 16) (h1 : (k 1).val = t.val % 4 * 512 + j.val) (h2 : (k 2).val = f.val) :
    wblk V c t (ix3 u j f) = warr V c k := by
  obtain ⟨-, -, -, e0, e1, e2, -⟩ := idx_facts0 t
  unfold wblk warr iblk0
  rw [View.read_apply]
  show V c main_arg1 _ = V c main_arg1 _
  congr 1
  funext a
  apply Fin.ext
  match a with
  | ⟨0, _⟩ => show win0_1.index t 0 * 1 + 1 * u.val = (k 0).val; rw [e0, h0]; omega
  | ⟨1, _⟩ => show win0_1.index t 1 * 512 + 1 * j.val = (k 1).val; rw [e1, h1]; omega
  | ⟨2, _⟩ => show win0_1.index t 2 * 4096 + 1 * f.val = (k 2).val; rw [e2, h2]; omega

end

/-! ## The accumulator after each point, over the extended reals -/

section
variable (V : (c : Dev nD) → (b : Ref sig .tc) → Buf (Elt Ideal) ((c : Thread nD τ).loc b))

/-- The accumulator after point `t`. -/
abbrev acc (c : Dev nD) (t : Fin cfg0.N) : Vec Ideal S256x4096 .f32 := (outsAt0 V c t.val t.isLt).2

/-- The block product of point `t` at row `r`, column `f`. -/
def bprod (c : Dev nD) (t : Fin cfg0.N) (r : Fin 256) (f : Fin 4096) : EReal :=
  ∑ j : Fin 512, xblk V c t (ix3 (0 : Fin 1) r j) * wblk V c t (ix3 (0 : Fin 1) j f)

/-- At a first contraction step the accumulator is zero plus the step's block product. -/
theorem acc_first (c : Dev nD) (t : Fin cfg0.N) (h0 : t.val % 4 = 0) (r : Fin 256) (f : Fin 4096) :
    acc V c t (ix2 r f) = 0 + bprod V c t r f := by
  have h1 : ¬t.val % 4 = 3 := by omega
  unfold acc
  rw [outsAt0_A V c t h0 h1]
  dsimp only
  refine (congrFun (sout0_A_eq (F := Ideal) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) (ix2 r f)).trans ?_
  rw [pay2_apply, pay1_apply]
  rfl

/-- At any later step it is what the point before left plus the step's block product. -/
theorem acc_step (c : Dev nD) (t s : Fin cfg0.N) (hs : s.val + 1 = t.val) (h0 : ¬t.val % 4 = 0) (r : Fin 256) (f : Fin 4096) :
    acc V c t (ix2 r f) = acc V c s (ix2 r f) + bprod V c t r f := by
  obtain rfl : s = ⟨t.val - 1, Nat.lt_of_le_of_lt (Nat.sub_le _ _) t.isLt⟩ := Fin.ext (by show s.val = t.val - 1; omega)
  unfold acc
  by_cases h1 : t.val % 4 = 3
  · rw [outsAt0_C V c t h0 h1]
    dsimp only
    refine (congrFun (sout0_C_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 r f)).trans ?_
    rw [pay2_apply]
    rfl
  · rw [outsAt0_B V c t h0 h1]
    dsimp only
    refine (congrFun (sout0_B_eq (F := Ideal) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) (ix2 r f)).trans ?_
    rw [pay2_apply]
    rfl

/-- The block product of point `t` read off the arrays: expert `t / 16`, the token tile's row, contraction
    columns `512 (t % 4) …`. -/
theorem bprod_eq (c : Dev nD) (t : Fin cfg0.N) (r : Fin 256) (f : Fin 4096) (e : Fin 8) (row : Fin 1024) (kk : Fin 4)
    (he : e.val = t.val / 16) (hrow : row.val = t.val / 4 % 4 * 256 + r.val) (hk : kk.val = t.val % 4) :
    bprod V c t r f = ∑ j : Fin 512, harr V c (ix3 e row (⟨kk.val * 512 + j.val, by omega⟩ : Fin 2048))
      * warr V c (ix3 e (⟨kk.val * 512 + j.val, by omega⟩ : Fin 2048) f) := by
  unfold bprod
  refine Finset.sum_congr rfl fun j _ => ?_
  rw [xblk_apply V c t 0 r j (ix3 e row (⟨kk.val * 512 + j.val, by omega⟩ : Fin 2048)) he hrow (by show kk.val * 512 + j.val = _; rw [hk]),
    wblk_apply V c t 0 j f (ix3 e (⟨kk.val * 512 + j.val, by omega⟩ : Fin 2048) f) he (by show kk.val * 512 + j.val = _; rw [hk]) rfl]

/-- After a last contraction step the accumulator holds the whole first projection at the tile's rows: the four
    steps' block products are the four quarters of the 2048-term sum. -/
theorem acc_last (c : Dev nD) (t : Fin cfg0.N) (h3 : t.val % 4 = 3) (r : Fin 256) (f : Fin 4096) (e : Fin 8) (row : Fin 1024)
    (he : e.val = t.val / 16) (hrow : row.val = t.val / 4 % 4 * 256 + r.val) :
    acc V c t (ix2 r f) = ∑ d : Fin 2048, harr V c (ix3 e row d) * warr V c (ix3 e d f) := by
  have hN : cfg0.N = 128 := N_0
  have ht := t.isLt
  rw [acc_step V c t ⟨t.val - 1, by omega⟩ (by show t.val - 1 + 1 = t.val; omega) (by omega) r f,
    acc_step V c ⟨t.val - 1, by omega⟩ ⟨t.val - 2, by omega⟩ (by show t.val - 2 + 1 = t.val - 1; omega) (by show ¬(t.val - 1) % 4 = 0; omega) r f,
    acc_step V c ⟨t.val - 2, by omega⟩ ⟨t.val - 3, by omega⟩ (by show t.val - 3 + 1 = t.val - 2; omega) (by show ¬(t.val - 2) % 4 = 0; omega) r f,
    acc_first V c ⟨t.val - 3, by omega⟩ (by show (t.val - 3) % 4 = 0; omega) r f]
  refine Eq.trans ?_ (Cert.Spec.sum_four_blocks (fun d => harr V c (ix3 e row d) * warr V c (ix3 e d f))
    ![bprod V c ⟨t.val - 3, by omega⟩ r f, bprod V c ⟨t.val - 2, by omega⟩ r f, bprod V c ⟨t.val - 1, by omega⟩ r f, bprod V c t r f] ?_)
  · rfl
  · intro k
    fin_cases k
    · exact bprod_eq V c ⟨t.val - 3, by omega⟩ r f e row 0 (by show e.val = (t.val - 3) / 16; omega) (by show row.val = (t.val - 3) / 4 % 4 * 256 + r.val; omega) (by show (0 : ℕ) = (t.val - 3) % 4; omega)
    · exact bprod_eq V c ⟨t.val - 2, by omega⟩ r f e row 1 (by show e.val = (t.val - 2) / 16; omega) (by show row.val = (t.val - 2) / 4 % 4 * 256 + r.val; omega) (by show (1 : ℕ) = (t.val - 2) % 4; omega)
    · exact bprod_eq V c ⟨t.val - 1, by omega⟩ r f e row 2 (by show e.val = (t.val - 1) / 16; omega) (by show row.val = (t.val - 1) / 4 % 4 * 256 + r.val; omega) (by show (2 : ℕ) = (t.val - 1) % 4; omega)
    · exact bprod_eq V c t r f e row 3 he hrow (by show (3 : ℕ) = t.val % 4; omega)

end

/-! ## From the blocks to the array -/

section
variable (V : (c : Dev nD) → (b : Ref sig .tc) → Buf (Elt Ideal) ((c : Thread nD τ).loc b))

/-- What the output array ends holding: the gated first projection of the token and weight arrays. -/
abbrev G0 (c : Dev nD) : Vec Ideal S8x1024x2048 .bf16 := Cert.Spec.gate (Cert.Spec.mm1 (harr V c) (warr V c))

theorem G0_apply (c : Dev nD) (e : Fin 8) (row : Fin 1024) (col : Fin 2048) :
    G0 V c (ix3 e row col)
      = (∑ d : Fin 2048, harr V c (ix3 e row d) * warr V c (ix3 e d (⟨2048 + col.val, by omega⟩ : Fin 4096)))
        * max (∑ d : Fin 2048, harr V c (ix3 e row d) * warr V c (ix3 e d (⟨col.val, by omega⟩ : Fin 4096))) 0 := rfl

/-- At a last contraction step the output window's buffer holds the gated product of the accumulator's halves. -/
theorem out_last (c : Dev nD) (t : Fin cfg0.N) (h3 : t.val % 4 = 3) :
    (outsAt0 V c t.val t.isLt).1 = k0_pay3 (acc V c t) := by
  have h0 : ¬t.val % 4 = 0 := by omega
  unfold acc
  rw [outsAt0_C V c t h0 h3]
  dsimp only
  exact (out0_C_2_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2).trans
    (congrArg k0_pay3 (sout0_C_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2).symm)

/-- What a last contraction step writes back is its block of the gated first projection. -/
theorem flushed0_eq (c : Dev nD) (t : Fin cfg0.N) (hf : (cfg0.win 2).flush t = true) :
    (dat0 V c).flushed 2 t = ((cfg0.win 2).blk t).view.read (Elt Ideal) (G0 V c) := by
  have h3 : t.val % 4 = 3 := (flush0_2 t).mp hf
  obtain ⟨-, -, -, -, -, -, e0, e1, e2⟩ := idx_facts0 t
  show (cfg0.win 2).cut (grid0.coords t) ((dat0 V c).after 2 t) = _
  rw [after0_2, out_last V c t h3]
  funext j
  obtain ⟨u, r, jj, rfl⟩ : ∃ (u : Fin 1) (r : Fin 256) (jj : Fin 2048), j = ix3 u r jj := ⟨j 0, j 1, j 2, eq_ix3 j⟩
  show k0_pay3 (acc V c t) (ix3 u r jj) = G0 V c (((cfg0.win 2).blk t).view.emb (ix3 u r jj))
  obtain ⟨e, row, col, hi⟩ : ∃ (e : Fin 8) (row : Fin 1024) (col : Fin 2048),
      ((cfg0.win 2).blk t).view.emb (ix3 u r jj) = ix3 e row col := ⟨_, _, _, eq_ix3 _⟩
  have he : win0_2.index t (0 : Fin 3) * 1 + 1 * u.val = e.val := congrArg Fin.val (congrFun hi 0)
  have hrow : win0_2.index t (1 : Fin 3) * 256 + 1 * r.val = row.val := congrArg Fin.val (congrFun hi 1)
  have hcol : win0_2.index t (2 : Fin 3) * 2048 + 1 * jj.val = col.val := congrArg Fin.val (congrFun hi 2)
  have hu : u.val = 0 := by omega
  obtain rfl : col = jj := Fin.ext (by omega)
  rw [hi, G0_apply, pay3_apply,
    acc_last V c t h3 r (⟨2048 + col.val, by omega⟩ : Fin 4096) e row (by omega) (by omega),
    acc_last V c t h3 r (⟨col.val, by omega⟩ : Fin 4096) e row (by omega) (by omega)]

/-- Every entry of the output array lies in the block of the last contraction step of its expert and token tile. -/
theorem cover0 (i : S8x1024x2048.Idx) :
    ∃ t : Fin cfg0.N, (cfg0.win 2).flush t = true ∧ i ∈ ((cfg0.win 2).blk t).view.set := by
  have hN : cfg0.N = 128 := N_0
  have h0 : (i 0).val < 8 := (i 0).isLt
  have h1 : (i 1).val < 1024 := (i 1).isLt
  have h2 : (i 2).val < 2048 := (i 2).isLt
  obtain ⟨t, ht⟩ : ∃ t : Fin cfg0.N, t.val = (i 0).val * 16 + (i 1).val / 256 * 4 + 3 := ⟨⟨_, by omega⟩, rfl⟩
  obtain ⟨-, -, -, -, -, -, e0, e1, e2⟩ := idx_facts0 t
  refine ⟨t, (flush0_2 t).mpr (by omega), ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

end

/-- The first projection's region leaves its output array at the gated first projection of the arrays it found. -/
theorem arr0_eq (V : (c : Dev nD) → (b : Ref sig .tc) → Buf (Elt Ideal) ((c : Thread nD τ).loc b)) (c : Dev nD) :
    (dat0 (F := Ideal) V c).arrAt 2 cfg0.N = Cert.Spec.gate (Cert.Spec.mm1 (V c main_v0) (V c main_arg1)) :=
  (dat0 V c).arrAt_eq_of_cover 2 (G0 V c) (flushed0_eq V c) cover0

end Cert.KernelIdeal.Fr

end
-- ==== Proof.KI.R1Pay.lean ====
/-
  The second projection's kernel body, entry by entry, over the extended reals.

  One contraction step adds to the accumulator's entry (r, f) the product of row r of the step's 256 × 512 block of
  activations with column f of the step's 512 × 2048 block of weights: a sum of 512 products.  Changes of float
  format are the identity on extended reals, the product's own accumulator is the zero splat, and the casts that
  drop or add the blocks' leading unit axis only rename indices.  The reset value is zero everywhere, and the value
  stored in the output block is the accumulator under a leading unit axis.
-/
import proofs.«159095_j3204045603931_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx

/-! ## The block product's operand indices -/

/-- The left operand's row is the result's row. -/
theorem lhs_down_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
/-- The left operand's column is the contraction position. -/
theorem lhs_down_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
/-- The right operand's row is the contraction position. -/
theorem rhs_down_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
/-- The right operand's column is the result's column. -/
theorem rhs_down_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The block product into the zero splat, at (r, f): row r of the left block against column f of the right. -/
theorem down_matmul_apply (a : FVec Ideal S256x512 .bf16) (b : FVec Ideal S512x2048 .bf16) (r : Fin 256) (f : Fin 2048) :
    FloatOps.matmul dot_S256x512_S512x2048_S256x2048_1_0_0_1_n_n none a b (constant S256x2048 .f32 0x00000000#32) (ix2 r f)
      = ∑ j : Fin 512, a (ix2 r j) * b (ix2 j f) := by
  rw [Ideal.matmul_constant_zero_apply, ← Equiv.sum_comp (ValueIdx.contrEquiv1 dot_S256x512_S512x2048_S256x2048_1_0_0_1_n_n 512 rfl rfl).symm]
  refine Finset.sum_congr rfl fun k _ => ?_
  have hk := ValueIdx.contrEquiv1_symm_val dot_S256x512_S512x2048_S256x2048_1_0_0_1_n_n 512 rfl rfl k
  have el : dot_S256x512_S512x2048_S256x2048_1_0_0_1_n_n.lhsIdx (ix2 r f) ((ValueIdx.contrEquiv1 dot_S256x512_S512x2048_S256x2048_1_0_0_1_n_n 512 rfl rfl).symm k) = ix2 r k := funext fun a => Fin.ext (by
    match a with
    | ⟨0, _⟩ => exact lhs_down_0 _ _
    | ⟨1, _⟩ => exact (lhs_down_1 _ _).trans hk)
  have er : dot_S256x512_S512x2048_S256x2048_1_0_0_1_n_n.rhsIdx (ix2 r f) ((ValueIdx.contrEquiv1 dot_S256x512_S512x2048_S256x2048_1_0_0_1_n_n 512 rfl rfl).symm k) = ix2 k f := funext fun a => Fin.ext (by
    match a with
    | ⟨0, _⟩ => exact (rhs_down_0 _ _).trans hk
    | ⟨1, _⟩ => exact rhs_down_1 _ _)
  rw [el, er]

/-! ## The three stored values at an index -/

/-- The reset value is zero everywhere. -/
theorem k1_pay1_apply (r : Fin 256) (f : Fin 2048) : k1_pay1 (F := Ideal) (ix2 r f) = 0 := by
  unfold k1_pay1
  rw [shapeCast_self]
  exact Ideal.ofBits_zero_f32

/-- A contraction step at (r, f): the accumulator's entry plus row r of the activations' block against column f of
    the weights' block. -/
theorem k1_pay2_apply (x0 : Vec Ideal S1x256x512 .bf16) (x1 : Vec Ideal S1x512x2048 .f32) (xs : Vec Ideal S256x2048 .f32)
    (r : Fin 256) (f : Fin 2048) :
    k1_pay2 (F := Ideal) x0 x1 xs (ix2 r f)
      = xs (ix2 r f) + ∑ j : Fin 512, x0 (ix3 (0 : Fin 1) r j) * x1 (ix3 (0 : Fin 1) j f) := by
  unfold k1_pay2
  rw [shapeCast_self]
  refine (addf_apply _ _ _).trans ?_
  refine congrArg (xs (ix2 r f) + ·) ?_
  refine (down_matmul_apply _ _ r f).trans ?_
  refine Finset.sum_congr rfl fun j _ => ?_
  rw [shapeCast_1ab_ab_apply, truncf_apply, shapeCast_1ab_ab_apply]

/-- The stored output block at (0, r, f) is the accumulator at (r, f). -/
theorem k1_pay3_apply (acc : Vec Ideal S256x2048 .f32) (u : Fin 1) (r : Fin 256) (f : Fin 2048) :
    k1_pay3 (F := Ideal) acc (ix3 u r f) = acc (ix2 r f) := by
  unfold k1_pay3
  exact shapeCast_ab_1ab_apply _ _ u r f

end Cert.KernelIdeal.Fr

end
-- ==== Proof.KI.R1Pieces.lean ====
/-
  The second projection's kernel region: what each case of the body leaves, as the body's arithmetic of the point's
  blocks.

  A first contraction step leaves in the accumulator the zero block plus the block product of the activation tile and
  the weight tile; a middle and a last step leave what they found plus that product; a last step leaves in the output
  window's buffer the accumulator it has just completed, regrouped with a leading unit axis.
-/
import proofs.«159095_j3204045603931_1_alg».proof.Proof.KI.R1Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces each case leaves, as payloads of the point's blocks -/

/-- Every load and store of the body is at offset zero of its buffer. -/
theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A first contraction step leaves the zero block plus the block product. -/
theorem sout1_A_eq (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : cond1_0 i) (hc1 : ¬cond1_1 i) (x0 : Vec F S1x256x512 .bf16) (x1 : Vec F S1x512x2048 .f32) :
    sout1_A c i arg3 harg3 arg4 harg4 arg5 harg5 arg6 harg6 hc0 hc1 x0 x1 = k1_pay2 x0 x1 (k1_pay1 (F := F)) := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S256x2048) r1_hz2, View.readCov_unit_zero (S := S256x2048) _ r1_hz2]
  simp only [View.readAt_eq_ld, harg3.read_unread, harg4.read_unread,
    View.ld_unit_zero (S := S1x256x512) r1_hz3, View.ld_unit_zero (S := S1x512x2048) r1_hz3, View.ld_unit_zero (S := S256x2048) r1_hz2]

/-- A middle step leaves what it found plus the block product. -/
theorem sout1_B_eq (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : ¬cond1_1 i) (x0 : Vec F S1x256x512 .bf16) (x1 : Vec F S1x512x2048 .f32) (xs0 : Vec F S256x2048 .f32) :
    sout1_B c i arg3 harg3 arg4 harg4 arg5 harg5 arg6 harg6 hc0 hc1 x0 x1 xs0 = k1_pay2 x0 x1 xs0 := by
  unfold sout1_B
  rw [View.read_writes_eq_canon _ _ _ (scover1_B c i arg3 harg3 arg4 harg4 arg5 harg5 arg6 harg6 hc0 hc1 x0 x1 xs0)]
  unfold kernelRun1_B
  dsimp only
  sl_unfold_words
  rw [View.canon_unit_zero r1_hz2]
  simp only [View.readAt_eq_ld, harg3.read_unread, harg4.read_unread, harg6.read_unread,
    View.ld_unit_zero (S := S1x256x512) r1_hz3, View.ld_unit_zero (S := S1x512x2048) r1_hz3, View.ld_unit_zero (S := S256x2048) r1_hz2]

/-- So does a last step, in the accumulator; -/
theorem sout1_C_eq (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i) (x0 : Vec F S1x256x512 .bf16) (x1 : Vec F S1x512x2048 .f32) (xs0 : Vec F S256x2048 .f32) :
    sout1_C c i arg3 harg3 arg4 harg4 arg5 harg5 arg6 harg6 hc0 hc1 x0 x1 xs0 = k1_pay2 x0 x1 xs0 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero r1_hz2]
  simp only [View.readAt_eq_ld, harg3.read_unread, harg4.read_unread, harg6.read_unread,
    View.ld_unit_zero (S := S1x256x512) r1_hz3, View.ld_unit_zero (S := S1x512x2048) r1_hz3, View.ld_unit_zero (S := S256x2048) r1_hz2]

/-- and in the output window's buffer it leaves that accumulator, regrouped with a leading unit axis. -/
theorem out1_C_2_eq (c : Dev nD) (i : grid1.Coords) (arg3 : Memref sig .tc .vmem S1x256x512 .bf16) (harg3 : arg3.IsWhole) (arg4 : Memref sig .tc .vmem S1x512x2048 .f32) (harg4 : arg4.IsWhole) (arg5 : Memref sig .tc .vmem S1x256x2048 .f32) (harg5 : arg5.IsWhole) (arg6 : Memref sig .tc .vmem S256x2048 .f32) (harg6 : arg6.IsWhole) (hc0 : ¬cond1_0 i) (hc1 : cond1_1 i) (x0 : Vec F S1x256x512 .bf16) (x1 : Vec F S1x512x2048 .f32) (xs0 : Vec F S256x2048 .f32) :
    out1_C_2 c i arg3 harg3 arg4 harg4 arg5 harg5 arg6 harg6 hc0 hc1 x0 x1 xs0 = k1_pay3 (k1_pay2 x0 x1 xs0) := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero r1_hz3]
  simp only [View.readAt_eq_ld, harg3.read_unread, harg4.read_unread, harg6.read_unread, View.readCov_unit_zero (S := S256x2048) _ r1_hz2,
    View.ld_unit_zero (S := S1x256x512) r1_hz3, View.ld_unit_zero (S := S1x512x2048) r1_hz3, View.ld_unit_zero (S := S256x2048) r1_hz2]

end Cert.KernelIdeal.Fr

end
-- ==== Proof.KI.R1Blocks.lean ====
/-
  The second projection's kernel region: where each window's block sits in its array.

  Point `t` of the 128 is expert `t / 16`, token tile `t / 4 % 4`, contraction step `t % 4`.  The activation block at
  `t` is rows `256 (t / 4 % 4) …`, columns `512 (t % 4) …` of the expert's activations; the weight block is rows
  `512 (t % 4) …`, every column, of the expert's second weights; the output block is rows `256 (t / 4 % 4) …`, every
  column, of the expert's output.  A block's coordinate on an axis is always its block index times the block's size plus
  the coordinate inside the block.  The output blocks written back at the last contraction steps tile the output array.
-/
import proofs.«159095_j3204045603931_1_alg».proof.Proof.KI.R1Base
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The block indices -/

/-- The three windows' block indices at point `t`: expert `t / 16`, token tile `t / 4 % 4`, contraction step `t % 4`. -/
theorem idx_facts1 : ∀ t : Fin cfg1.N,
    win1_0.index t (0 : Fin 3) = t.val / 16 ∧ win1_0.index t (1 : Fin 3) = t.val / 4 % 4 ∧ win1_0.index t (2 : Fin 3) = t.val % 4
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val / 4 % 4 ∧ win1_2.index t (2 : Fin 3) = 0 :=
  (by decide +kernel : ∀ t : Fin grid1.N, _)

section
variable (V : (c : Dev nD) → (b : Ref sig .tc) → Buf (Elt F) ((c : Thread nD τ).loc b))

/-! ## The input blocks -/

/-- The activation block at point `t` holds rows `256 (t / 4 % 4) …`, columns `512 (t % 4) …` of expert `t / 16`. -/
theorem iblk1_0_apply (c : Dev nD) (t : Fin cfg1.N) (r : Fin 256) (j : Fin 512) :
    iblk1 V c 0 t (ix3 (0 : Fin 1) r j) = V c main_v1 (ix3 (⟨t.val / 16, by have := t.isLt; have : cfg1.N = 128 := N_1; omega⟩ : Fin 8) (⟨(t.val / 4 % 4) * 256 + r.val, by have := r.isLt; omega⟩ : Fin 1024) (⟨(t.val % 4) * 512 + j.val, by have := j.isLt; omega⟩ : Fin 2048)) := by
  obtain ⟨e0, e1, e2, -⟩ := idx_facts1 t
  unfold iblk1
  rw [View.read_apply]
  show V c main_v1 _ = V c main_v1 _
  congr 1
  funext a
  apply Fin.ext
  match a with
  | ⟨0, _⟩ => show win1_0.index t 0 * 1 + 1 * 0 = t.val / 16; rw [e0]; omega
  | ⟨1, _⟩ => show win1_0.index t 1 * 256 + 1 * r.val = t.val / 4 % 4 * 256 + r.val; rw [e1]; omega
  | ⟨2, _⟩ => show win1_0.index t 2 * 512 + 1 * j.val = t.val % 4 * 512 + j.val; rw [e2]; omega

/-- The weight block at point `t` holds rows `512 (t % 4) …`, every column, of expert `t / 16`. -/
theorem iblk1_1_apply (c : Dev nD) (t : Fin cfg1.N) (j : Fin 512) (f : Fin 2048) :
    iblk1 V c 1 t (ix3 (0 : Fin 1) j f) = V c main_arg2 (ix3 (⟨t.val / 16, by have := t.isLt; have : cfg1.N = 128 := N_1; omega⟩ : Fin 8) (⟨(t.val % 4) * 512 + j.val, by have := j.isLt; omega⟩ : Fin 2048) f) := by
  obtain ⟨-, -, -, e0, e1, e2, -⟩ := idx_facts1 t
  unfold iblk1
  rw [View.read_apply]
  show V c main_arg2 _ = V c main_arg2 _
  congr 1
  funext a
  apply Fin.ext
  match a with
  | ⟨0, _⟩ => show win1_1.index t 0 * 1 + 1 * 0 = t.val / 16; rw [e0]; omega
  | ⟨1, _⟩ => show win1_1.index t 1 * 512 + 1 * j.val = t.val % 4 * 512 + j.val; rw [e1]; omega
  | ⟨2, _⟩ => show win1_1.index t 2 * 2048 + 1 * f.val = f.val; rw [e2]; omega

end

/-! ## The output block -/

/-- The output block at point `t`, read off any contents of the output array: rows `256 (t / 4 % 4) …`, every column,
    of expert `t / 16`. -/
theorem oblk1_read (c : Dev nD) (t : Fin cfg1.N) (G : Buf (Elt F) ((cfg1.win 2).arr.view.loc (c.tc : Thread nD τ))) (r : Fin 256) (f : Fin 2048) :
    ((cfg1.win 2).blk t).view.read (Elt F) G (ix3 (0 : Fin 1) r f) = G (ix3 (⟨t.val / 16, by have := t.isLt; have : cfg1.N = 128 := N_1; omega⟩ : Fin 8) (⟨(t.val / 4 % 4) * 256 + r.val, by have := r.isLt; omega⟩ : Fin 1024) f) := by
  obtain ⟨-, -, -, -, -, -, e0, e1, e2⟩ := idx_facts1 t
  rw [View.read_apply]
  show G _ = G _
  congr 1
  funext a
  apply Fin.ext
  match a with
  | ⟨0, _⟩ => show win1_2.index t 0 * 1 + 1 * 0 = t.val / 16; rw [e0]; omega
  | ⟨1, _⟩ => show win1_2.index t 1 * 256 + 1 * r.val = t.val / 4 % 4 * 256 + r.val; rw [e1]; omega
  | ⟨2, _⟩ => show win1_2.index t 2 * 2048 + 1 * f.val = f.val; rw [e2]; omega

/-- Every entry of the output array lies in the block of the last contraction step of its expert and token tile. -/
theorem cover1 (c : Dev nD) : ∀ i : ((cfg1.win 2).arr.view.loc (c.tc : Thread nD τ)).2.ty.Idx, ∃ t : Fin cfg1.N, (cfg1.win 2).flush t = true ∧ i ∈ ((cfg1.win 2).blk t).view.set := by
  show ∀ i : S8x1024x2048.Idx, ∃ t : Fin cfg1.N, (cfg1.win 2).flush t = true ∧ i ∈ ((cfg1.win 2).blk t).view.set
  intro i
  have hN : cfg1.N = 128 := N_1
  have h0 : (i 0).val < 8 := (i 0).isLt
  have h1 : (i 1).val < 1024 := (i 1).isLt
  have h2 : (i 2).val < 2048 := (i 2).isLt
  obtain ⟨t, ht⟩ : ∃ t : Fin cfg1.N, t.val = (i 0).val * 16 + (i 1).val / 256 * 4 + 3 := ⟨⟨_, by omega⟩, rfl⟩
  obtain ⟨-, -, -, -, -, -, e0, e1, e2⟩ := idx_facts1 t
  refine ⟨t, (flush1_2 t).mpr (by omega), ?_⟩
  show i ∈ ((View.whole main_v2).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 2048 ≤ (i 2).val ∧ (i 2).val < win1_2.index t (2 : Fin 3) * 2048 + 2048; omega

end Cert.KernelIdeal.Fr

end
-- ==== Proof.KI.R1Value.lean ====
/-
  The second projection's kernel region, read as values over the extended reals.

  Point `t` of the 128 is expert `t / 16`, token tile `t / 4 % 4`, contraction step `t % 4`.  A step adds to the
  accumulator's entry (r, f) the 512 products of the activations' row `256 (t / 4 % 4) + r` with the weights' column
  `f` whose contraction index lies in the step's run `512 (t % 4) … 512 (t % 4) + 511`; step 0 starts from zero.  So
  after step `k` the entry holds zero plus the shares of steps `0 … k` added in that order (by induction on the
  point), and after step 3 the four shares are the four quarters of the whole 2048-term sum: the entry of the product
  of the expert's activations by its weights.  The last step stores the accumulator whole into the output block, the
  blocks written back tile the output array, and so the array ends holding the second projection.
-/
import proofs.«159095_j3204045603931_1_alg».proof.Proof.KI.R1Body
import proofs.«159095_j3204045603931_1_alg».proof.Proof.KI.R1Pay
import proofs.«159095_j3204045603931_1_alg».proof.Proof.KI.R1Pieces
import proofs.«159095_j3204045603931_1_alg».proof.Proof.KI.R1Blocks
import proofs.«159095_j3204045603931_1_alg».proof.Proof.Spec
import proofs.«159095_j3204045603931_1_alg».proof.Proof.Blocks
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- A point's position is below 128. -/
theorem lt128_1 (t : Fin cfg1.N) : t.val < 128 := by have := t.isLt; have : cfg1.N = 128 := N_1; omega

/-! ## One entry of the product, cut into the four contraction steps -/

/-- Contraction step `k`'s share of the product's entry at expert `e`, token row `row`, column `f`: the 512 terms
    whose contraction index lies in `512 k … 512 k + 511`. -/
def blockSum1 (a : Cert.Spec.SH.Idx → EReal) (w : Cert.Spec.SW2.Idx → EReal) (e : Fin 8) (row : Fin 1024) (f : Fin 2048)
    (k : ℕ) (hk : k < 4) : EReal :=
  ∑ j : Fin 512, a (ix3 e row (⟨k * 512 + j.val, by omega⟩ : Fin 2048)) * w (ix3 e (⟨k * 512 + j.val, by omega⟩ : Fin 2048) f)

/-- What the accumulator's entry holds after contraction step `k`: zero plus the shares of steps `0 … k`, added in
    that order. -/
def accAfter1 (a : Cert.Spec.SH.Idx → EReal) (w : Cert.Spec.SW2.Idx → EReal) (e : Fin 8) (row : Fin 1024) (f : Fin 2048) :
    (k : ℕ) → k < 4 → EReal
  | 0, h => 0 + blockSum1 a w e row f 0 h
  | k + 1, h => accAfter1 a w e row f k (Nat.lt_of_succ_lt h) + blockSum1 a w e row f (k + 1) h

theorem accAfter1_first (a : Cert.Spec.SH.Idx → EReal) (w : Cert.Spec.SW2.Idx → EReal) (e : Fin 8) (row : Fin 1024) (f : Fin 2048)
    (k : ℕ) (hk : k < 4) (h0 : k = 0) : accAfter1 a w e row f k hk = 0 + blockSum1 a w e row f k hk := by
  subst h0; rfl

theorem accAfter1_next (a : Cert.Spec.SH.Idx → EReal) (w : Cert.Spec.SW2.Idx → EReal) (e : Fin 8) (row : Fin 1024) (f : Fin 2048)
    (k : ℕ) (hk : k < 4) (h0 : k ≠ 0) :
    accAfter1 a w e row f k hk = accAfter1 a w e row f (k - 1) (by omega) + blockSum1 a w e row f k hk := by
  cases k with
  | zero => exact absurd rfl h0
  | succ k => rfl

theorem accAfter1_congr (a : Cert.Spec.SH.Idx → EReal) (w : Cert.Spec.SW2.Idx → EReal) {e e' : Fin 8} {row row' : Fin 1024} (f : Fin 2048)
    {k k' : ℕ} (hk : k < 4) (hk' : k' < 4) (he : e = e') (hrow : row = row') (hkk : k = k') :
    accAfter1 a w e row f k hk = accAfter1 a w e' row' f k' hk' := by
  subst he hrow hkk; rfl

/-- After the last step the entry is the whole 2048-term sum: the four shares are its four quarters. -/
theorem accAfter1_last (a : Cert.Spec.SH.Idx → EReal) (w : Cert.Spec.SW2.Idx → EReal) (e : Fin 8) (row : Fin 1024) (f : Fin 2048) :
    accAfter1 a w e row f 3 (by decide) = Cert.Spec.mm2 a w (ix3 e row f) :=
  Cert.Spec.sum_four_blocks (fun d => a (ix3 e row d) * w (ix3 e d f)) (fun k => blockSum1 a w e row f k.val k.isLt) (fun k => rfl)

/-! ## The accumulator after each point -/

section
variable (V : (c : Dev nD) → (b : Ref sig .tc) → Buf (Elt Ideal) ((c : Thread nD τ).loc b))

/-- The activations and the weights as the region finds them, and the two input blocks at a point. -/
abbrev aArr1 (c : Dev nD) : Cert.Spec.SH.Idx → EReal := V c main_v1
abbrev wArr1 (c : Dev nD) : Cert.Spec.SW2.Idx → EReal := V c main_arg2
abbrev ablk1 (c : Dev nD) (t : Fin cfg1.N) : Vec Ideal S1x256x512 .bf16 := iblk1 V c 0 t
abbrev wblk1 (c : Dev nD) (t : Fin cfg1.N) : Vec Ideal S1x512x2048 .f32 := iblk1 V c 1 t

/-- Point `t`'s expert, the array row of its token tile's row `r`, and the array's contraction index of its step's
    place `j`. -/
abbrev expert1 (t : Fin cfg1.N) : Fin 8 := ⟨t.val / 16, by have := lt128_1 t; omega⟩
abbrev row1 (t : Fin cfg1.N) (r : Fin 256) : Fin 1024 := ⟨t.val / 4 % 4 * 256 + r.val, by omega⟩
abbrev col1 (t : Fin cfg1.N) (j : Fin 512) : Fin 2048 := ⟨t.val % 4 * 512 + j.val, by omega⟩

theorem ablk1_apply (c : Dev nD) (t : Fin cfg1.N) (r : Fin 256) (j : Fin 512) :
    ablk1 V c t (ix3 (0 : Fin 1) r j) = aArr1 V c (ix3 (expert1 t) (row1 t r) (col1 t j)) := iblk1_0_apply V c t r j
theorem wblk1_apply (c : Dev nD) (t : Fin cfg1.N) (j : Fin 512) (f : Fin 2048) :
    wblk1 V c t (ix3 (0 : Fin 1) j f) = wArr1 V c (ix3 (expert1 t) (col1 t j) f) := iblk1_1_apply V c t j f

/-- The block product of point `t` at row `r`, column `f` is the step's share of the array product's entry. -/
theorem step1_sum (c : Dev nD) (t : Fin cfg1.N) (r : Fin 256) (f : Fin 2048) :
    ∑ j : Fin 512, ablk1 V c t (ix3 (0 : Fin 1) r j) * wblk1 V c t (ix3 (0 : Fin 1) j f)
      = blockSum1 (aArr1 V c) (wArr1 V c) (expert1 t) (row1 t r) f (t.val % 4) (Nat.mod_lt _ (by decide)) := by
  unfold blockSum1
  refine Finset.sum_congr rfl fun j _ => ?_
  rw [ablk1_apply, wblk1_apply]

/-- After point `t` the accumulator's entry (r, f) holds zero plus the shares of the contraction steps up to `t`'s,
    of the entry at `t`'s expert and token row: by induction on the point. -/
theorem acc1_at (c : Dev nD) : ∀ (n : ℕ) (t : Fin cfg1.N), t.val = n → ∀ (r : Fin 256) (f : Fin 2048),
    (outsAt1 V c t.val t.isLt).2 (ix2 r f)
      = accAfter1 (aArr1 V c) (wArr1 V c) (expert1 t) (row1 t r) f (t.val % 4) (Nat.mod_lt _ (by decide)) := by
  intro n
  induction n using Nat.strong_induction_on with
  | _ n ih =>
    intro t ht r f
    subst ht
    by_cases h0 : t.val % 4 = 0
    · have h1 : ¬t.val % 4 = 3 := by omega
      rw [outsAt1_A V c t h0 h1]
      dsimp only
      refine (congrFun (sout1_A_eq (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (ablk1 V c t) (wblk1 V c t)) (ix2 r f)).trans ?_
      refine (k1_pay2_apply (ablk1 V c t) (wblk1 V c t) (k1_pay1 (F := Ideal)) r f).trans ?_
      rw [k1_pay1_apply r f, step1_sum V c t r f, accAfter1_first _ _ _ _ _ _ _ h0]
    · have hpos : 0 < t.val := by omega
      have hlt : t.val - 1 < cfg1.N := Nat.lt_of_le_of_lt (Nat.sub_le _ _) t.isLt
      have hprev := ih (t.val - 1) (by omega) ⟨t.val - 1, hlt⟩ rfl r f
      have hstep : (outsAt1 V c t.val t.isLt).2 (ix2 r f)
          = (outsAt1 V c (t.val - 1) hlt).2 (ix2 r f) + ∑ j : Fin 512, ablk1 V c t (ix3 (0 : Fin 1) r j) * wblk1 V c t (ix3 (0 : Fin 1) j f) := by
        by_cases h1 : t.val % 4 = 3
        · rw [outsAt1_C V c t h0 h1]
          dsimp only
          refine (congrFun (sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (ablk1 V c t) (wblk1 V c t) (outsAt1 V c (t.val - 1) hlt).2) (ix2 r f)).trans ?_
          exact k1_pay2_apply (ablk1 V c t) (wblk1 V c t) (outsAt1 V c (t.val - 1) hlt).2 r f
        · rw [outsAt1_B V c t h0 h1]
          dsimp only
          refine (congrFun (sout1_B_eq (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (ablk1 V c t) (wblk1 V c t) (outsAt1 V c (t.val - 1) hlt).2) (ix2 r f)).trans ?_
          exact k1_pay2_apply (ablk1 V c t) (wblk1 V c t) (outsAt1 V c (t.val - 1) hlt).2 r f
      rw [hstep, step1_sum V c t r f, accAfter1_next _ _ _ _ _ (t.val % 4) _ h0]
      refine congrArg (· + _) (hprev.trans ?_)
      exact accAfter1_congr _ _ f _ _ (Fin.ext (by show (t.val - 1) / 16 = t.val / 16; omega))
        (Fin.ext (by show (t.val - 1) / 4 % 4 * 256 + r.val = t.val / 4 % 4 * 256 + r.val; omega))
        (by show (t.val - 1) % 4 = t.val % 4 - 1; omega)

/-- At a last contraction step the output window's buffer holds, under a leading unit axis, the accumulator. -/
theorem out1_last (c : Dev nD) (t : Fin cfg1.N) (h3 : t.val % 4 = 3) (u : Fin 1) (r : Fin 256) (f : Fin 2048) :
    (outsAt1 V c t.val t.isLt).1 (ix3 u r f) = (outsAt1 V c t.val t.isLt).2 (ix2 r f) := by
  have h0 : ¬t.val % 4 = 0 := by omega
  have hlt : t.val - 1 < cfg1.N := Nat.lt_of_le_of_lt (Nat.sub_le _ _) t.isLt
  rw [outsAt1_C V c t h0 h3]
  dsimp only
  refine (congrFun (out1_C_2_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h3) (ablk1 V c t) (wblk1 V c t) (outsAt1 V c (t.val - 1) hlt).2) (ix3 u r f)).trans ?_
  refine (k1_pay3_apply _ u r f).trans ?_
  exact (congrFun (sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h3) (ablk1 V c t) (wblk1 V c t) (outsAt1 V c (t.val - 1) hlt).2) (ix2 r f)).symm

/-! ## From the blocks to the array -/

/-- What the output array ends holding: the second projection of the activations by the weights. -/
abbrev G1 (c : Dev nD) : Vec Ideal S8x1024x2048 .f32 := Cert.Spec.mm2 (aArr1 V c) (wArr1 V c)

/-- What a last contraction step writes back is its block of the second projection. -/
theorem flushed1_eq (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  show (cfg1.win 2).cut (grid1.coords t) ((dat1 V c).after 2 t) = _
  rw [after1_2]
  funext y
  obtain ⟨u, r, f, rfl⟩ : ∃ (u : Fin 1) (r : Fin 256) (f : Fin 2048), y = ix3 u r f := ⟨y 0, y 1, y 2, eq_ix3 y⟩
  obtain rfl : u = 0 := Subsingleton.elim _ _
  show (outsAt1 V c t.val t.isLt).1 (ix3 (0 : Fin 1) r f) = _
  rw [oblk1_read c t (G1 V c) r f, out1_last V c t h3 0 r f, acc1_at V c t.val t rfl r f]
  exact (accAfter1_congr _ _ f _ (by decide) rfl rfl h3).trans (accAfter1_last _ _ _ _ f)

end

/-- The second projection's region leaves its output array at the product of the activations and the weights it
    found. -/
theorem arr1_eq (V : (c : Dev nD) → (b : Ref sig .tc) → Buf (Elt Ideal) ((c : Thread nD τ).loc b)) (c : Dev nD) :
    (dat1 (F := Ideal) V c).arrAt 2 cfg1.N = Cert.Spec.mm2 (V c main_v1) (V c main_arg2) :=
  (dat1 V c).arrAt_eq_of_cover 2 (G1 V c) (flushed1_eq V c) (cover1 c)

end Cert.KernelIdeal.Fr

end
-- ==== Proof.KI.Value.lean ====
/-
  The idealized kernel's result, as extended reals: the reshape of `core` of the reshaped first argument and the two
  weight arguments.  The second region leaves the second projection of its two operands in its output array; its first
  operand is the first region's output array, the gated first projection of the reshaped tokens and the first weights;
  the weights reach both regions as launched.
-/
import proofs.«159095_j3204045603931_1_alg».proof.Proof.KI.Final
import proofs.«159095_j3204045603931_1_alg».proof.Proof.KI.R0Value
import proofs.«159095_j3204045603931_1_alg».proof.Proof.KI.R1Value
import proofs.«159095_j3204045603931_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The result buffer at the last fold. -/
theorem result (c : Dev nD) :
    W4 (F := Ideal) m c (Proc.devRef .tc main_v3)
      = shapeCast S8192x2048 (Cert.Spec.core (shapeCast S8x1024x2048 (m ((c : Thread nD τ).loc main_arg0)) shapeCasts_S8192x2048_S8x1024x2048)
          (m ((c : Thread nD τ).loc main_arg1)) (m ((c : Thread nD τ).loc main_arg2))) shapeCasts_S8x1024x2048_S8192x2048 := by
  rw [W4_main_v3, W3_main_v2, arr1_eq (V2 m) c]
  have e1 : V2 m c main_v1 = Cert.Spec.gate (Cert.Spec.mm1 (shapeCast S8x1024x2048 (m ((c : Thread nD τ).loc main_arg0)) shapeCasts_S8192x2048_S8x1024x2048) (m ((c : Thread nD τ).loc main_arg1))) := by
    show W2 m c (Proc.devRef .tc main_v1) = _
    rw [W2_main_v1, arr0_eq (V1 m) c]
    have a : V1 m c main_v0 = shapeCast S8x1024x2048 (m ((c : Thread nD τ).loc main_arg0)) shapeCasts_S8192x2048_S8x1024x2048 := W1_main_v0 m c
    have b : V1 m c main_arg1 = m ((c : Thread nD τ).loc main_arg1) := W1_of_ne m c main_arg1 (by decide)
    rw [a, b]
  have e2 : V2 m c main_arg2 = m ((c : Thread nD τ).loc main_arg2) := W2_main_arg2 m c
  rw [e1, e2]
  rfl

/-- Every weakly fair execution of the idealized kernel terminates with the result at that function of the arguments
    and the arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v3) = shapeCast S8192x2048 (Cert.Spec.core (shapeCast S8x1024x2048 (m ((c : Thread nD τ).loc main_arg0)) shapeCasts_S8192x2048_S8x1024x2048)
          (m ((c : Thread nD τ).loc main_arg1)) (m ((c : Thread nD τ).loc main_arg2))) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (result m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run m ρ)

end Cert.KernelIdeal.Fr

end
-- ==== Proof.RefValue.lean ====
/-
  The reference's result, read index by index, is the specification's function of the arguments.
-/
import proofs.«159095_j3204045603931_1_alg».proof.Proof.Gen.ReferenceIdeal.Run
import proofs.«159095_j3204045603931_1_alg».proof.Proof.Gen.ReferenceIdeal.Read
import proofs.«159095_j3204045603931_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The arguments of the two projections, as the program types them. -/
abbrev Arg0 : Type := (⟨S8192x2048, .f32⟩ : BufTy).Contents (Elt Ideal)
abbrev Arg1 : Type := (⟨S8x2048x4096, .f32⟩ : BufTy).Contents (Elt Ideal)
abbrev Arg2 : Type := (⟨S8x2048x2048, .f32⟩ : BufTy).Contents (Elt Ideal)

/-! ## Where each contraction reads its operands -/

theorem lidx_v1 (a : Fin 8) (b : Fin 1024) (f : Fin 4096) (k : Fin 2048) :
    lidx_main_v1 (ix3 a b f) k = ix3 a b k :=
  funext fun d => Fin.ext (by match d with | ⟨0, _⟩ => rfl | ⟨1, _⟩ => rfl | ⟨2, _⟩ => rfl)

theorem ridx_v1 (a : Fin 8) (b : Fin 1024) (f : Fin 4096) (k : Fin 2048) :
    ridx_main_v1 (ix3 a b f) k = ix3 a k f :=
  funext fun d => Fin.ext (by match d with | ⟨0, _⟩ => rfl | ⟨1, _⟩ => rfl | ⟨2, _⟩ => rfl)

theorem lidx_v6 (a : Fin 8) (b : Fin 1024) (c : Fin 2048) (k : Fin 2048) :
    lidx_main_v6 (ix3 a b c) k = ix3 a b k :=
  funext fun d => Fin.ext (by match d with | ⟨0, _⟩ => rfl | ⟨1, _⟩ => rfl | ⟨2, _⟩ => rfl)

theorem ridx_v6 (a : Fin 8) (b : Fin 1024) (c : Fin 2048) (k : Fin 2048) :
    ridx_main_v6 (ix3 a b c) k = ix3 a k c :=
  funext fun d => Fin.ext (by match d with | ⟨0, _⟩ => rfl | ⟨1, _⟩ => rfl | ⟨2, _⟩ => rfl)

/-- The gate half's column of column `c`. -/
theorem idx_v2 (a : Fin 8) (b : Fin 1024) (c : Fin 2048) :
    idx_main_v2 (ix3 a b c) = ix3 a b (⟨c.val, by have := c.isLt; omega⟩ : Fin 4096) :=
  funext fun d => Fin.ext (by match d with | ⟨0, _⟩ => rfl | ⟨1, _⟩ => rfl | ⟨2, _⟩ => rfl)

/-- The up half's column of column `c`. -/
theorem idx_v3 (a : Fin 8) (b : Fin 1024) (c : Fin 2048) :
    idx_main_v3 (ix3 a b c) = ix3 a b (⟨2048 + c.val, by have := c.isLt; omega⟩ : Fin 4096) :=
  funext fun d => Fin.ext (by match d with | ⟨0, _⟩ => rfl | ⟨1, _⟩ => rfl | ⟨2, _⟩ => rfl)

/-! ## The stages -/

/-- The first contraction is the first projection of the regrouped tokens. -/
theorem v1_eq_mm1 (x0 : Arg0) (x1 : Arg1) :
    val_main_v1 (F := Ideal) x0 x1 = Cert.Spec.mm1 (shapeCast S8x1024x2048 x0 shapeCasts_S8192x2048_S8x1024x2048) x1 := by
  funext i
  obtain ⟨a, b, f, rfl⟩ : ∃ (a : Fin 8) (b : Fin 1024) (f : Fin 4096), i = ix3 a b f := ⟨i 0, i 1, i 2, eq_ix3 i⟩
  rw [val_main_v1_apply]
  unfold Cert.Spec.mm1 val_main_v0
  refine Finset.sum_congr rfl fun k _ => ?_
  rw [lidx_v1, ridx_v1]

/-- The product of the up half with the positive part of the gate half is the specification's gate. -/
theorem v5_eq_gate (x0 : Arg0) (x1 : Arg1) :
    val_main_v5 (F := Ideal) x0 x1 = Cert.Spec.gate (val_main_v1 (F := Ideal) x0 x1) := by
  funext i
  obtain ⟨a, b, c, rfl⟩ : ∃ (a : Fin 8) (b : Fin 1024) (c : Fin 2048), i = ix3 a b c := ⟨i 0, i 1, i 2, eq_ix3 i⟩
  rw [val_main_v5_apply, val_main_v3_apply, val_main_v4_apply, val_main_v2_apply, val_main_call0_v0_apply,
    val_main_call0_cst_apply, idx_v2, idx_v3]
  simp only [Ideal.mulf_def, Ideal.maximumf_def, Ideal.ofBits_def, Ideal.ofBits_zero_f32]
  rfl

/-- The second contraction is the second projection of its left operand. -/
theorem v6_eq_mm2 (x0 : Arg0) (x1 : Arg1) (x2 : Arg2) :
    val_main_v6 (F := Ideal) x0 x1 x2 = Cert.Spec.mm2 (val_main_v5 (F := Ideal) x0 x1) x2 := by
  funext i
  obtain ⟨a, b, c, rfl⟩ : ∃ (a : Fin 8) (b : Fin 1024) (c : Fin 2048), i = ix3 a b c := ⟨i 0, i 1, i 2, eq_ix3 i⟩
  rw [val_main_v6_apply]
  unfold Cert.Spec.mm2
  refine Finset.sum_congr rfl fun k _ => ?_
  rw [lidx_v6, ridx_v6]

/-! ## The result -/

/-- Before its last reshape the reference holds the specification's function of the regrouped tokens and the weights. -/
theorem val_v6_eq_core (x0 : (⟨S8192x2048, .f32⟩ : BufTy).Contents (Elt Ideal)) (x1 : (⟨S8x2048x4096, .f32⟩ : BufTy).Contents (Elt Ideal)) (x2 : (⟨S8x2048x2048, .f32⟩ : BufTy).Contents (Elt Ideal)) :
    Cert.ReferenceIdeal.Read.val_main_v6 (F := Ideal) x0 x1 x2 = Cert.Spec.core (shapeCast S8x1024x2048 x0 shapeCasts_S8192x2048_S8x1024x2048) x1 x2 := by
  rw [v6_eq_mm2, v5_eq_gate, v1_eq_mm1]
  rfl

/-- The reference's result is that function, reshaped to the 8192 token rows. -/
theorem result_eq (x0 : (⟨S8192x2048, .f32⟩ : BufTy).Contents (Elt Ideal)) (x1 : (⟨S8x2048x4096, .f32⟩ : BufTy).Contents (Elt Ideal)) (x2 : (⟨S8x2048x2048, .f32⟩ : BufTy).Contents (Elt Ideal)) :
    Cert.ReferenceIdeal.Read.val_main_v7 (F := Ideal) x0 x1 x2 = shapeCast S8192x2048 (Cert.Spec.core (shapeCast S8x1024x2048 x0 shapeCasts_S8192x2048_S8x1024x2048) x1 x2) shapeCasts_S8x1024x2048_S8192x2048 := by
  unfold val_main_v7
  rw [val_v6_eq_core]

end Cert.ReferenceIdeal.RefValue

end
-- ==== Proof.lean ====
/-
  A gated two-layer projection per expert, computed tile by tile, against the same computation written as two batched
  matrix products.

  Per expert the kernel accumulates each 256 × 4096 tile of tokens·W1 over four contraction steps of 512, multiplies the
  up half by the positive part of the gate half, and then accumulates each 256 × 2048 tile of that activation times W2
  in the same way.  As extended reals (a change of float format is the identity, a matrix product into a zero
  accumulator is a finite sum) the four partial sums are one sum over the 2048 contraction indices, in a commutative
  monoid, so both programs compute `core` (Spec) of the reshaped tokens and the weights, between the two reshapes they
  share.  No finiteness of the inputs is used.

  The word-level kernel and the idealized kernel run to the end with their arguments unchanged by one argument, written
  generically in the float instance: each region's body is run whole in its three cases (first, middle, last
  contraction step), the accumulator is carried through the region invariant at exactly the contents the case analysis
  gives, and the two regions and the two reshapes are chained from the launch memory.  The reference's run and its
  stage-by-stage reading are generated; its stages are identified with the specification's functions.
-/
import proofs.«159095_j3204045603931_1_alg».proof.Defs
import proofs.«159095_j3204045603931_1_alg».proof.Proof.Gen.Kernel
import proofs.«159095_j3204045603931_1_alg».proof.Proof.Gen.KernelIdeal
import proofs.«159095_j3204045603931_1_alg».proof.Proof.Gen.ReferenceIdeal
import proofs.«159095_j3204045603931_1_alg».proof.Proof.Gen.Pre_finite_inputs
import proofs.«159095_j3204045603931_1_alg».proof.Proof.Gen.ReferenceIdeal.Run
import proofs.«159095_j3204045603931_1_alg».proof.Proof.Gen.ReferenceIdeal.Read
import proofs.«159095_j3204045603931_1_alg».proof.Proof.K.Final
import proofs.«159095_j3204045603931_1_alg».proof.Proof.KI.Value
import proofs.«159095_j3204045603931_1_alg».proof.Proof.RefValue

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both idealized programs end with `core` of the reshaped tokens and the
    weights, reshaped back. -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
